-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S27x128x128 : Shape := ⟨3, ![27, 128, 128]⟩
abbrev S128 : Shape := ⟨1, ![128]⟩
abbrev S27x50000 : Shape := ⟨2, ![27, 50000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S27x128x128 : S_.BroadcastsInDim S27x128x128 (![] : Fin 0 → Fin S27x128x128.rank)
  reducesTo_S27x128x128_S_d0_1_2 : S27x128x128.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S27x128x128 .f32) (main_arg5 : FVec F S128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S27x128x128 .f32 := Host.absf main_arg4
  let main_cst_6 : FVec F S_ .f32 := constant S_ .f32 0x7F800000#32
  let main_v20 : FVec F S27x128x128 .f32 := broadcastInDim S27x128x128 ![] bcast_S_S27x128x128 main_cst_6
  let main_v21 : IVec S27x128x128 1 := cmpf .olt main_v19 main_v20
  let main_c_7 : IVec S_ 1 := constantI S_ 1 1#1
  let main_v22 : IVec S_ 1 := (fun x v => Host.reduce IntOp.andi x v reducesTo_S27x128x128_S_d0_1_2 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S27x128x128 .f32) (main_arg2 : FVec F S128 .f32) (main_arg3 : FVec F S128 .f32) (main_arg4 : FVec F S27x128x128 .f32) (main_arg5 : FVec F S128 .f32) (main_arg6 : FVec F S128 .f32) (main_arg7 : IVec S27x50000 32) (main_arg8 : IVec S27x50000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S27x128x128 .f32 := Host.absf main_arg1
  let main_cst_0 : FVec F S_ .f32 := constant S_ .f32 0x7F800000#32
  let main_v5 : FVec F S27x128x128 .f32 := broadcastInDim S27x128x128 ![] bcast_S_S27x128x128 main_cst_0
  let main_v6 : IVec S27x128x128 1 := cmpf .olt main_v4 main_v5
  let main_c_1 : IVec S_ 1 := constantI S_ 1 1#1
  let main_v7 : IVec S_ 1 := (fun x v => Host.reduce IntOp.andi x v reducesTo_S27x128x128_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S27x128x128 : Shape := ⟨3, ![27, 128, 128]⟩
abbrev S128 : Shape := ⟨1, ![128]⟩
abbrev S27x50000 : Shape := ⟨2, ![27, 50000]⟩
abbrev S_ : Shape := ⟨0, ![]⟩
abbrev S27x50000x1 : Shape := ⟨3, ![27, 50000, 1]⟩
abbrev S27x50000x128 : Shape := ⟨3, ![27, 50000, 128]⟩
abbrev S1x10000x128 : Shape := ⟨3, ![1, 10000, 128]⟩
abbrev S1x128x128 : Shape := ⟨3, ![1, 128, 128]⟩
abbrev S10000x128 : Shape := ⟨2, ![10000, 128]⟩
abbrev S128x128 : Shape := ⟨2, ![128, 128]⟩
abbrev S1x128 : Shape := ⟨2, ![1, 128]⟩

abbrev nBuf : Space → Nat
  | .hbm => 81
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S27x128x128, .f32⟩
  | .hbm, ⟨2, _⟩ => ⟨S128, .f32⟩
  | .hbm, ⟨3, _⟩ => ⟨S128, .f32⟩
  | .hbm, ⟨4, _⟩ => ⟨S27x128x128, .f32⟩
  | .hbm, ⟨5, _⟩ => ⟨S128, .f32⟩
  | .hbm, ⟨6, _⟩ => ⟨S128, .f32⟩
  | .hbm, ⟨7, _⟩ => ⟨S27x50000, .i32⟩
  | .hbm, ⟨8, _⟩ => ⟨S27x50000, .i32⟩
  | .hbm, ⟨9, _⟩ => ⟨S_, .i32⟩
  | .hbm, ⟨10, _⟩ => ⟨S27x50000, .i32⟩
  | .hbm, ⟨11, _⟩ => ⟨S27x50000, .i1⟩
  | .hbm, ⟨12, _⟩ => ⟨S_, .i32⟩
  | .hbm, ⟨13, _⟩ => ⟨S27x50000, .i32⟩
  | .hbm, ⟨14, _⟩ => ⟨S27x50000, .i32⟩
  | .hbm, ⟨15, _⟩ => ⟨S27x50000, .i32⟩
  | .hbm, ⟨16, _⟩ => ⟨S27x50000x1, .i32⟩
  | .hbm, ⟨17, _⟩ => ⟨S27x50000x128, .f32⟩
  | .hbm, ⟨18, _⟩ => ⟨S27x50000x128, .f32⟩
  | .hbm, ⟨19, _⟩ => ⟨S_, .f32⟩
  | .hbm, ⟨20, _⟩ => ⟨S100000x128, .f32⟩
  | .hbm, ⟨21, _⟩ => ⟨S_, .i32⟩
  | .hbm, ⟨22, _⟩ => ⟨S27x50000, .i32⟩
  | .hbm, ⟨23, _⟩ => ⟨S27x50000, .i1⟩
  | .hbm, ⟨24, _⟩ => ⟨S_, .i32⟩
  | .hbm, ⟨25, _⟩ => ⟨S27x50000, .i32⟩
  | .hbm, ⟨26, _⟩ => ⟨S27x50000, .i32⟩
  | .hbm, ⟨27, _⟩ => ⟨S27x50000, .i32⟩
  | .hbm, ⟨28, _⟩ => ⟨S27x50000x1, .i32⟩
  | .hbm, ⟨29, _⟩ => ⟨S100000x128, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S100000x128, .f32⟩
  | .hbm, ⟨45, _⟩ => ⟨S_, .i32⟩
  | .hbm, ⟨46, _⟩ => ⟨S27x50000, .i32⟩
  | .hbm, ⟨47, _⟩ => ⟨S27x50000, .i1⟩
  | .hbm, ⟨48, _⟩ => ⟨S_, .i32⟩
  | .hbm, ⟨49, _⟩ => ⟨S27x50000, .i32⟩
  | .hbm, ⟨50, _⟩ => ⟨S27x50000, .i32⟩
  | .hbm, ⟨51, _⟩ => ⟨S27x50000, .i32⟩
  | .hbm, ⟨52, _⟩ => ⟨S27x50000x1, .i32⟩
  | .hbm, ⟨53, _⟩ => ⟨S27x50000x128, .f32⟩
  | .hbm, ⟨54, _⟩ => ⟨S27x50000x128, .f32⟩
  | .hbm, ⟨55, _⟩ => ⟨S_, .f32⟩
  | .hbm, ⟨56, _⟩ => ⟨S100000x128, .f32⟩
  | .hbm, ⟨57, _⟩ => ⟨S_, .i32⟩
  | .hbm, ⟨58, _⟩ => ⟨S27x50000, .i32⟩
  | .hbm, ⟨59, _⟩ => ⟨S27x50000, .i1⟩
  | .hbm, ⟨60, _⟩ => ⟨S_, .i32⟩
  | .hbm, ⟨61, _⟩ => ⟨S27x50000, .i32⟩
  | .hbm, ⟨62, _⟩ => ⟨S27x50000, .i32⟩
  | .hbm, ⟨63, _⟩ => ⟨S27x50000, .i32⟩
  | .hbm, ⟨64, _⟩ => ⟨S27x50000x1, .i32⟩
  | .hbm, ⟨65, _⟩ => ⟨S100000x128, .f32⟩
  | .hbm, ⟨66, _⟩ => ⟨S_, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S128, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S100000x128, .f32⟩
  | .local _ .vmem, ⟨0, _⟩ => ⟨S1x10000x128, .f32⟩
  | .local _ .vmem, ⟨1, _⟩ => ⟨S1x10000x128, .f32⟩
  | .local _ .vmem, ⟨2, _⟩ => ⟨S1x128x128, .f32⟩
  | .local _ .vmem, ⟨3, _⟩ => ⟨S1x128x128, .f32⟩
  | .local _ .vmem, ⟨4, _⟩ => ⟨S1x10000x128, .f32⟩
  | .local _ .vmem, ⟨5, _⟩ => ⟨S1x10000x128, .f32⟩
  | .local _ .vmem, ⟨6, _⟩ => ⟨S10000x128, .f32⟩
  | .local _ .vmem, ⟨7, _⟩ => ⟨S10000x128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S10000x128, .f32⟩
  | .local _ .vmem, ⟨13, _⟩ => ⟨S10000x128, .f32⟩
  | .local _ .vmem, ⟨14, _⟩ => ⟨S1x10000x128, .f32⟩
  | .local _ .vmem, ⟨15, _⟩ => ⟨S1x10000x128, .f32⟩
  | .local _ .vmem, ⟨16, _⟩ => ⟨S1x128x128, .f32⟩
  | .local _ .vmem, ⟨17, _⟩ => ⟨S1x128x128, .f32⟩
  | .local _ .vmem, ⟨18, _⟩ => ⟨S1x10000x128, .f32⟩
  | .local _ .vmem, ⟨19, _⟩ => ⟨S1x10000x128, .f32⟩
  | .local _ .vmem, ⟨20, _⟩ => ⟨S10000x128, .f32⟩
  | .local _ .vmem, ⟨21, _⟩ => ⟨S10000x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_c_10 : Ref sig .tc := ⟨.hbm, 57, rfl⟩
abbrev main_v36 : Ref sig .tc := ⟨.hbm, 58, rfl⟩
abbrev main_v37 : Ref sig .tc := ⟨.hbm, 59, rfl⟩
abbrev main_c_11 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_12 : Ref sig .tc := ⟨.hbm, 66, rfl⟩
abbrev main_v43 : Ref sig .tc := ⟨.hbm, 67, rfl⟩
abbrev main_cst_13 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_14 : Ref sig .tc := ⟨.hbm, 75, rfl⟩
abbrev main_v50 : Ref sig .tc := ⟨.hbm, 76, rfl⟩
abbrev main_cst_15 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc3_stg6_0 : Ref sig .tc := ⟨.vmem, 28, rfl⟩
abbrev cc3_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc3_sem6_0 : DmaSem sig := 28
abbrev cc3_sem6_1 : DmaSem sig := 29

abbrev nD : Nat := 1
abbrev τ : Topo := Topo.v7x

variable {F : FTy → Type} [FloatOps F]

abbrev grid0 : Pipeline.Grid := ⟨2, ![27, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![27, 5], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  inb_S1x10000x128_S1x10000x128_0_0_0 : ∀ a, (![0, 0, 0] : Fin 3 → Nat) a + S1x10000x128.size a ≤ S1x10000x128.size a
  h_S1x10000x128 : 0 < S1x10000x128.numel
  shapeCasts_S1x10000x128_S10000x128 : S1x10000x128.ShapeCasts S10000x128
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S10000x128_S1x10000x128 : S10000x128.ShapeCasts S1x10000x128
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S10000x128 : S1x128.Broadcasts S10000x128
  gather_S100000x128_S27x50000x1_S27x50000x128_2_0_n_n_0_2_1128_wf : GatherDims.WF S100000x128 S27x50000x1 S27x50000x128 [2] [0] [] [0] [] 2 ![1, 128]
  dot_S10000x128_S128x128_S10000x128_1_0_0_1_n_n_wf : DotDims.WF S10000x128 S128x128 S10000x128 [1] [0] [0] [1] [] []
  scatter_S100000x128_S27x50000x1_S27x50000x128_2_0_0_2_wf : ScatterDims.WF S100000x128 S27x50000x1 S27x50000x128 [2] [0] [0] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x10000x128.size a ≤ S27x50000x128.size a
  hwx0_0 : ∀ i : grid0.Coords, EltTy.bits .f32 = 32 ∨ (Rect.block (s := S27x50000x128) S1x10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S27x128x128.size a
  hwx0_1 : ∀ i : grid0.Coords, EltTy.bits .f32 = 32 ∨ (Rect.block (s := S27x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x128.size a ≤ S27x50000x128.size a
  hwx0_2 : ∀ i : grid0.Coords, EltTy.bits .f32 = 32 ∨ (Rect.block (s := S27x50000x128) S1x10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x10000x128.size a ≤ S27x50000x128.size a
  hwx2_0 : ∀ i : grid2.Coords, EltTy.bits .f32 = 32 ∨ (Rect.block (s := S27x50000x128) S1x10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x128.size a ≤ S27x128x128.size a
  hwx2_1 : ∀ i : grid2.Coords, EltTy.bits .f32 = 32 ∨ (Rect.block (s := S27x128x128) S1x128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x10000x128.size a ≤ S27x50000x128.size a
  hwx2_2 : ∀ i : grid2.Coords, EltTy.bits .f32 = 32 ∨ (Rect.block (s := S27x50000x128) S1x10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S100000x128.size a
  hwx3_6 : ∀ i : grid3.Coords, EltTy.bits .f32 = 32 ∨ (Rect.block (s := S100000x128) S10000x128.size (cc3_transform_6 i) (hinb3_6 i)).WholeWords (EltTy.packing .f32)

variable [Facts₀]

def gather_S100000x128_S27x50000x1_S27x50000x128_2_0_n_n_0_2_1128 : GatherDims S100000x128 S27x50000x1 S27x50000x128 where
  offsetDims := [2]
  collapsedSliceDims := [0]
  operandBatchingDims := []
  startIndicesBatchingDims := []
  startIndexMap := [0]
  indexVectorDim := 2
  sliceSizes := ![1, 128]
  wf := gather_S100000x128_S27x50000x1_S27x50000x128_2_0_n_n_0_2_1128_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000x128_S27x50000x1_S27x50000x128_2_0_0_2 : ScatterDims S100000x128 S27x50000x1 S27x50000x128 where
  updateWindowDims := [2]
  insertedWindowDims := [0]
  scatterDimsToOperandDims := [0]
  indexVectorDim := 2
  wf := scatter_S100000x128_S27x50000x1_S27x50000x128_2_0_0_2_wf

abbrev win0_0 : Pipeline.Window sig grid0 :=
  Pipeline.Window.ofSpec (Memref.whole main_v6) S1x10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S1x10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1x128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S1x10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v42) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg0) S10000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v53) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x128 : Shape := ⟨2, ![100000, 128]⟩
abbrev S27x128x128 : Shape := ⟨3, ![27, 128, 128]⟩
abbrev S128 : Shape := ⟨1, ![128]⟩
abbrev S27x50000 : Shape := ⟨2, ![27, 50000]⟩
abbrev S_ : Shape := ⟨0, ![]⟩
abbrev S27x50000x1 : Shape := ⟨3, ![27, 50000, 1]⟩
abbrev S27x50000x128 : Shape := ⟨3, ![27, 50000, 128]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S27x128x128, .f32⟩
  | .hbm, ⟨2, _⟩ => ⟨S128, .f32⟩
  | .hbm, ⟨3, _⟩ => ⟨S128, .f32⟩
  | .hbm, ⟨4, _⟩ => ⟨S27x128x128, .f32⟩
  | .hbm, ⟨5, _⟩ => ⟨S128, .f32⟩
  | .hbm, ⟨6, _⟩ => ⟨S128, .f32⟩
  | .hbm, ⟨7, _⟩ => ⟨S27x50000, .i32⟩
  | .hbm, ⟨8, _⟩ => ⟨S27x50000, .i32⟩
  | .hbm, ⟨9, _⟩ => ⟨S_, .i32⟩
  | .hbm, ⟨10, _⟩ => ⟨S27x50000, .i32⟩
  | .hbm, ⟨11, _⟩ => ⟨S27x50000, .i1⟩
  | .hbm, ⟨12, _⟩ => ⟨S_, .i32⟩
  | .hbm, ⟨13, _⟩ => ⟨S27x50000, .i32⟩
  | .hbm, ⟨14, _⟩ => ⟨S27x50000, .i32⟩
  | .hbm, ⟨15, _⟩ => ⟨S27x50000, .i32⟩
  | .hbm, ⟨16, _⟩ => ⟨S27x50000x1, .i32⟩
  | .hbm, ⟨17, _⟩ => ⟨S27x50000x128, .f32⟩
  | .hbm, ⟨18, _⟩ => ⟨S27x50000x128, .f32⟩
  | .hbm, ⟨19, _⟩ => ⟨S_, .f32⟩
  | .hbm, ⟨20, _⟩ => ⟨S100000x128, .f32⟩
  | .hbm, ⟨21, _⟩ => ⟨S_, .i32⟩
  | .hbm, ⟨22, _⟩ => ⟨S27x50000, .i32⟩
  | .hbm, ⟨23, _⟩ => ⟨S27x50000, .i1⟩
  | .hbm, ⟨24, _⟩ => ⟨S_, .i32⟩
  | .hbm, ⟨25, _⟩ => ⟨S27x50000, .i32⟩
  | .hbm, ⟨26, _⟩ => ⟨S27x50000, .i32⟩
  | .hbm, ⟨27, _⟩ => ⟨S27x50000, .i32⟩
  | .hbm, ⟨28, _⟩ => ⟨S27x50000x1, .i32⟩
  | .hbm, ⟨29, _⟩ => ⟨S100000x128, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S27x50000, .i32⟩
  | .hbm, ⟨65, _⟩ => ⟨S27x50000, .i1⟩
  | .hbm, ⟨66, _⟩ => ⟨S_, .i32⟩
  | .hbm, ⟨67, _⟩ => ⟨S27x50000, .i32⟩
  | .hbm, ⟨68, _⟩ => ⟨S27x50000, .i32⟩
  | .hbm, ⟨69, _⟩ => ⟨S27x50000, .i32⟩
  | .hbm, ⟨70, _⟩ => ⟨S27x50000x1, .i32⟩
  | .hbm, ⟨71, _⟩ => ⟨S27x50000x128, .f32⟩
  | .hbm, ⟨72, _⟩ => ⟨S27x50000x128, .f32⟩
  | .hbm, ⟨73, _⟩ => ⟨S_, .f32⟩
  | .hbm, ⟨74, _⟩ => ⟨S100000x128, .f32⟩
  | .hbm, ⟨75, _⟩ => ⟨S_, .i32⟩
  | .hbm, ⟨76, _⟩ => ⟨S27x50000, .i32⟩
  | .hbm, ⟨77, _⟩ => ⟨S27x50000, .i1⟩
  | .hbm, ⟨78, _⟩ => ⟨S_, .i32⟩
  | .hbm, ⟨79, _⟩ => ⟨S27x50000, .i32⟩
  | .hbm, ⟨80, _⟩ => ⟨S27x50000, .i32⟩
  | .hbm, ⟨81, _⟩ => ⟨S27x50000, .i32⟩
  | .hbm, ⟨82, _⟩ => ⟨S27x50000x1, .i32⟩
  | .hbm, ⟨83, _⟩ => ⟨S100000x128, .f32⟩
  | .hbm, ⟨84, _⟩ => ⟨S_, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S128, .f32⟩
  | .hbm, ⟨95, _⟩ => ⟨S_, .f32⟩
  | .hbm, ⟨96, _⟩ => ⟨S128, .f32⟩
  | .hbm, ⟨97, _⟩ => ⟨S128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S128, .f32⟩
  | .hbm, ⟨105, _⟩ => ⟨S1x128, .f32⟩
  | .hbm, ⟨106, _⟩ => ⟨S100000x128, .f32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | .hbm, ⟨114, _⟩ => ⟨S100000x128, .f32⟩
  | .hbm, ⟨115, _⟩ => ⟨S_, .f32⟩
  | .hbm, ⟨116, _⟩ => ⟨S100000x128, .f32⟩
  | .hbm, ⟨117, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_cst : Ref sig .tc := ⟨.hbm, 60, rfl⟩
abbrev main_call0_v0 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_c_11 : Ref sig .tc := ⟨.hbm, 75, rfl⟩
abbrev main_v51 : Ref sig .tc := ⟨.hbm, 76, rfl⟩
abbrev main_v52 : Ref sig .tc := ⟨.hbm, 77, rfl⟩
abbrev main_c_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_cst_14 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_15 : Ref sig .tc := ⟨.hbm, 93, rfl⟩
abbrev main_v65 : Ref sig .tc := ⟨.hbm, 94, rfl⟩
abbrev main_cst_16 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call1_cst : Ref sig .tc := ⟨.hbm, 115, rfl⟩
abbrev main_call1_v0 : Ref sig .tc := ⟨.hbm, 116, rfl⟩
abbrev main_v84 : Ref sig .tc := ⟨.hbm, 117, rfl⟩

abbrev nD : Nat := 1
abbrev τ : Topo := Topo.v7x

variable {F : FTy → Type} [FloatOps F]

class Facts₀ : Prop where
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S27x50000x1_S27x50000x128_2_0_n_n_0_2_1128_wf : GatherDims.WF S100000x128 S27x50000x1 S27x50000x128 [2] [0] [] [0] [] 2 ![1, 128]
  dot_S27x50000x128_S27x128x128_S27x50000x128_2_1_1_2_0_0_wf : DotDims.WF S27x50000x128 S27x128x128 S27x50000x128 [2] [1] [1] [2] [0] [0]
  scatter_S100000x128_S27x50000x1_S27x50000x128_2_0_0_2_wf : ScatterDims.WF S100000x128 S27x50000x1 S27x50000x128 [2] [0] [0] 2

variable [Facts₀]

def gather_S100000x128_S27x50000x1_S27x50000x128_2_0_n_n_0_2_1128 : GatherDims S100000x128 S27x50000x1 S27x50000x128 where
  offsetDims := [2]
  collapsedSliceDims := [0]
  operandBatchingDims := []
  startIndicesBatchingDims := []
  startIndexMap := [0]
  indexVectorDim := 2
  sliceSizes := ![1, 128]
  wf := gather_S100000x128_S27x50000x1_S27x50000x128_2_0_n_n_0_2_1128_wf
def dot_S27x50000x128_S27x128x128_S27x50000x128_2_1_1_2_0_0 : DotDims S27x50000x128 S27x128x128 S27x50000x128 where
  lhsContracting := [2]
  rhsContracting := [1]
  lhsNonContracting := [1]
  rhsNonContracting := [2]
  lhsBatch := [0]
  rhsBatch := [0]
  wf := dot_S27x50000x128_S27x128x128_S27x50000x128_2_1_1_2_0_0_wf
def scatter_S100000x128_S27x50000x1_S27x50000x128_2_0_0_2 : ScatterDims S100000x128 S27x50000x1 S27x50000x128 where
  updateWindowDims := [2]
  insertedWindowDims := [0]
  scatterDimsToOperandDims := [0]
  indexVectorDim := 2
  wf := scatter_S100000x128_S27x50000x1_S27x50000x128_2_0_0_2_wf

class Facts : Prop extends Facts₀ where

variable [Facts]
-- ==== Proof.Spec.lean ====
/-
  The residual block as ONE function of the nine argument arrays, written with the host operations of the
  reference: a sparse convolution is gather rows → a batched 128×128 product per kernel offset → scatter-add
  of the messages into a zero array; batch normalisation takes the column mean and the biased column
  variance over the 100000 rows, then (y − μ)·rsqrt(σ² + ε)·γ + β; the block is
  relu(bn₂(conv₂(relu(bn₁(conv₁ x)))) + x).
-/
import proofs.«139614_j8418135900537_1_alg».proof.Proof.Gen.ReferenceIdeal

noncomputable section

namespace Cert.ReferenceIdeal.Spec

open Cert.ReferenceIdeal Cert.ReferenceIdeal.Gen Idealize.ShloMosaic Idealize.ShloMosaic.TcCoe

variable {F : FTy → Type} [FloatOps F]

/-- A vector of 128 channel values repeated along the 100000 rows. -/
def rows (v : FVec F S128 .f32) : FVec F S100000x128 .f32 :=
  broadcastInDim S100000x128 ![0, 1] bcast_S1x128_S100000x128_0_1 (broadcastInDim S1x128 ![1] bcast_S128_S1x128_1 v)

/-- An index table with negative entries wrapped by the row count, as a column of row indices. -/
def rowIdx (i : IVec S27x50000 32) : IVec S27x50000x1 32 :=
  broadcastInDim S27x50000x1 ![0, 1] bcast_S27x50000_S27x50000x1_0_1
    (select (cmpi .slt i (broadcastInDim S27x50000 ![] bcast_S_S27x50000 (constantI S_ 32 0#32)))
      (addi i (broadcastInDim S27x50000 ![] bcast_S_S27x50000 (constantI S_ 32 100000#32))) i)

/-- The rows of `x` the table names, per kernel offset. -/
def gath (x : FVec F S100000x128 .f32) (i : IVec S27x50000 32) : FVec F S27x50000x128 .f32 :=
  Host.gather gather_S100000x128_S27x50000x1_S27x50000x128_2_0_n_n_0_2_1128 x (rowIdx i)

/-- Per kernel offset k: the [50000,128] slab times the k-th [128,128] weight. -/
def prod (g : FVec F S27x50000x128 .f32) (w : FVec F S27x128x128 .f32) : FVec F S27x50000x128 .f32 :=
  Host.dotGeneral dot_S27x50000x128_S27x128x128_S27x50000x128_2_1_1_2_0_0 none g w

/-- The messages added into a zero array at the rows the table names. -/
def scat (u : FVec F S27x50000x128 .f32) (i : IVec S27x50000 32) : FVec F S100000x128 .f32 :=
  Host.scatterAdd scatter_S100000x128_S27x50000x1_S27x50000x128_2_0_0_2
    (broadcastInDim S100000x128 ![] bcast_S_S100000x128 (constant S_ .f32 0x00000000#32)) (rowIdx i) u

/-- One sparse convolution. -/
def conv (x : FVec F S100000x128 .f32) (w : FVec F S27x128x128 .f32) (ii io : IVec S27x50000 32) : FVec F S100000x128 .f32 :=
  scat (prod (gath x ii) w) io

/-- The column sums over the rows, divided by the row count. -/
def colMean (y : FVec F S100000x128 .f32) : FVec F S128 .f32 :=
  Host.divf (Host.reduceAdd y (constant S_ .f32 0x00000000#32) reducesTo_S100000x128_S128_d0 h_S_)
    (broadcastInDim S128 ![] bcast_S_S128 (constant S_ .f32 0x47C35000#32))

/-- The biased column variance about a given mean. -/
def colVar (y : FVec F S100000x128 .f32) (μ : FVec F S128 .f32) : FVec F S128 .f32 :=
  colMean (mulf (subf y (rows μ)) (subf y (rows μ)))

/-- (y − μ)·rsqrt(σ² + ε)·γ + β, channel vectors repeated along the rows. -/
def affine (y : FVec F S100000x128 .f32) (γ β μ σ2 : FVec F S128 .f32) : FVec F S100000x128 .f32 :=
  addf (mulf (mulf (subf y (rows μ))
    (rows (Host.rsqrt (addf σ2 (broadcastInDim S128 ![] bcast_S_S128 (constant S_ .f32 0x3727C5AC#32)))))) (rows γ)) (rows β)

/-- max(·, 0). -/
def relu (y : FVec F S100000x128 .f32) : FVec F S100000x128 .f32 :=
  maximumf y (broadcastInDim S100000x128 ![] bcast_S_S100000x128 (constant S_ .f32 0x00000000#32))

/-- Normalise, scale, shift, clamp at zero. -/
def bnRelu (y : FVec F S100000x128 .f32) (γ β μ σ2 : FVec F S128 .f32) : FVec F S100000x128 .f32 :=
  relu (affine y γ β μ σ2)

/-- Normalise, scale, shift, add the skip input, clamp at zero. -/
def bnAddRelu (y : FVec F S100000x128 .f32) (γ β μ σ2 : FVec F S128 .f32) (x : FVec F S100000x128 .f32) : FVec F S100000x128 .f32 :=
  relu (addf (affine y γ β μ σ2) x)

/-- The first half: conv₁, then batch normalisation with its own statistics, then relu. -/
def half (x : FVec F S100000x128 .f32) (w1 : FVec F S27x128x128 .f32) (γ1 β1 : FVec F S128 .f32) (ii io : IVec S27x50000 32) : FVec F S100000x128 .f32 :=
  bnRelu (conv x w1 ii io) γ1 β1 (colMean (conv x w1 ii io)) (colVar (conv x w1 ii io) (colMean (conv x w1 ii io)))

/-- The whole block. -/
def block (x : FVec F S100000x128 .f32) (w1 : FVec F S27x128x128 .f32) (γ1 β1 : FVec F S128 .f32) (w2 : FVec F S27x128x128 .f32)
    (γ2 β2 : FVec F S128 .f32) (ii io : IVec S27x50000 32) : FVec F S100000x128 .f32 :=
  bnAddRelu (conv (half x w1 γ1 β1 ii io) w2 ii io) γ2 β2
    (colMean (conv (half x w1 γ1 β1 ii io) w2 ii io))
    (colVar (conv (half x w1 γ1 β1 ii io) w2 ii io) (colMean (conv (half x w1 γ1 β1 ii io) w2 ii io))) x

end Cert.ReferenceIdeal.Spec

end
-- ==== Proof.RefSpec.lean ====
/-
  The reference's stages, read one operation at a time, are the block function: its two index wraps are
  `rowIdx`, its gathers, products and scatter-adds the convolutions, its two reduce-and-divide pairs the column
  mean and variance, and the elementwise tails the two normalise-and-clamp steps.
-/
import proofs.«139614_j8418135900537_1_alg».proof.Proof.Gen.ReferenceIdeal.Read
import proofs.«139614_j8418135900537_1_alg».proof.Proof.Spec

noncomputable section

namespace Cert.ReferenceIdeal.Spec

open Cert.ReferenceIdeal Cert.ReferenceIdeal.Gen Cert.ReferenceIdeal.Read Idealize.ShloMosaic Idealize.ShloMosaic.TcCoe

variable {F : FTy → Type} [FloatOps F]
variable (x0 : (⟨S100000x128, .f32⟩ : BufTy).Contents (Elt F)) (x1 : (⟨S27x128x128, .f32⟩ : BufTy).Contents (Elt F)) (x2 x3 : (⟨S128, .f32⟩ : BufTy).Contents (Elt F))
  (x4 : (⟨S27x128x128, .f32⟩ : BufTy).Contents (Elt F)) (x5 x6 : (⟨S128, .f32⟩ : BufTy).Contents (Elt F)) (x7 x8 : (⟨S27x50000, .i32⟩ : BufTy).Contents (Elt F))

/-- The first gather's index column. -/
theorem idx_in1 : val_main_v5 (F := F) x7 = rowIdx x7 := rfl
/-- The first scatter's index column. -/
theorem idx_out1 : val_main_v14 (F := F) x8 = rowIdx x8 := rfl
/-- The second gather's index column. -/
theorem idx_in2 : val_main_v47 (F := F) x7 = rowIdx x7 := rfl
/-- The second scatter's index column. -/
theorem idx_out2 : val_main_v56 (F := F) x8 = rowIdx x8 := rfl

/-- The first convolution. -/
theorem conv1_eq : val_main_v15 (F := F) x0 x1 x7 x8 = conv x0 x1 x7 x8 := by
  unfold val_main_v15 val_main_v7 val_main_v6 conv scat prod gath
  rw [idx_in1, idx_out1]
  rfl

/-- Its column mean. -/
theorem mean1_eq : val_main_v18 (F := F) x0 x1 x7 x8 = colMean (conv x0 x1 x7 x8) := by
  unfold val_main_v18 val_main_v16
  rw [conv1_eq]
  rfl

/-- Its column variance. -/
theorem var1_eq : val_main_v25 (F := F) x0 x1 x7 x8 = colVar (conv x0 x1 x7 x8) (colMean (conv x0 x1 x7 x8)) := by
  unfold val_main_v25 val_main_v23 val_main_v22 val_main_v21 val_main_v20 val_main_v19
  rw [conv1_eq, mean1_eq]
  rfl

/-- The first half: normalised, scaled, shifted, clamped. -/
theorem half_eq : val_main_v41 (F := F) x0 x1 x2 x3 x7 x8 = half x0 x1 x2 x3 x7 x8 := by
  unfold val_main_v41 val_main_v40 val_main_v37 val_main_v34 val_main_v28 val_main_v27 val_main_v26 val_main_v33 val_main_v32
    val_main_v31 val_main_v30
  rw [conv1_eq, mean1_eq, var1_eq]
  rfl

/-- The second convolution. -/
theorem conv2_eq : val_main_v57 (F := F) x0 x1 x2 x3 x4 x7 x8 = conv (half x0 x1 x2 x3 x7 x8) x4 x7 x8 := by
  unfold val_main_v57 val_main_v49 val_main_v48
  rw [half_eq, idx_in2, idx_out2]
  rfl

/-- Its column mean. -/
theorem mean2_eq : val_main_v60 (F := F) x0 x1 x2 x3 x4 x7 x8 = colMean (conv (half x0 x1 x2 x3 x7 x8) x4 x7 x8) := by
  unfold val_main_v60 val_main_v58
  rw [conv2_eq]
  rfl

/-- Its column variance. -/
theorem var2_eq : val_main_v67 (F := F) x0 x1 x2 x3 x4 x7 x8
    = colVar (conv (half x0 x1 x2 x3 x7 x8) x4 x7 x8) (colMean (conv (half x0 x1 x2 x3 x7 x8) x4 x7 x8)) := by
  unfold val_main_v67 val_main_v65 val_main_v64 val_main_v63 val_main_v62 val_main_v61
  rw [conv2_eq, mean2_eq]
  rfl

/-- The reference's result is the block function of its arguments. -/
theorem ref_block : val_main_v84 (F := F) x0 x1 x2 x3 x4 x5 x6 x7 x8 = block x0 x1 x2 x3 x4 x5 x6 x7 x8 := by
  unfold val_main_v84 val_main_v83 val_main_v82 val_main_v79 val_main_v76 val_main_v70 val_main_v69 val_main_v68 val_main_v75
    val_main_v74 val_main_v73 val_main_v72
  rw [conv2_eq, mean2_eq, var2_eq]
  rfl

end Cert.ReferenceIdeal.Spec

end
-- ==== Proof.GemmRegion.lean ====
/-
  The two product regions. Each grid point (k, b) of the 27 × 5 grid loads rows 10000·b … 10000·b + 9999 of slab k
  and the k-th weight matrix, multiplies them into a zero accumulator, and writes the product back to the same
  rows of slab k of the result; the 135 blocks tile the result, which therefore ends holding the batched product
  of the whole operands.

  The steps: the body's stored block at (0, r, d) is ∑_{c<128} x(0, r, c) · w(0, c, d) (the unit axis dropped and
  added back, the narrowing the identity on extended reals, the product into zero the plain sum); the batched
  product of the whole operands at (k, r, d) is ∑_{c<128} g(k, r, c) · w(k, c, d); a block's element (0, r, ·) sits
  in its array at (k, 10000·b + r, ·), the weight block's (0, c, d) at (k, c, d), so what point (k, b) writes back is
  its block of the batched product; every index (k, r, d) lies in the block of point (k, r / 10000).
-/
import proofs.«139614_j8418135900537_1_alg».proof.Proof.Gen.KernelIdeal.Frame
import proofs.«139614_j8418135900537_1_alg».proof.Proof.Spec
import proofs.«139614_j8418135900537_1_alg».proof.Proof.Gen.ReferenceIdeal.Read
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Conv

open Cert.KernelIdeal Cert.KernelIdeal.Gen

/-! ## One block product at an index -/

/-- The left factor's row is the result's row. -/
private theorem blockDot_lhs_0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left factor's column is the summation index. -/
private theorem blockDot_lhs_1 (j : S10000x128.Idx) (q : dot_S10000x128_S128x128_S10000x128_1_0_0_1_n_n.contr.Idx) :
    (dot_S10000x128_S128x128_S10000x128_1_0_0_1_n_n.lhsIdx j q 1).val = (q ⟨0, by decide⟩).val :=
  dot_S10000x128_S128x128_S10000x128_1_0_0_1_n_n.lhsIdx_val_of_single rfl j q
/-- The right factor's row is the summation index. -/
private theorem blockDot_rhs_0 (j : S10000x128.Idx) (q : dot_S10000x128_S128x128_S10000x128_1_0_0_1_n_n.contr.Idx) :
    (dot_S10000x128_S128x128_S10000x128_1_0_0_1_n_n.rhsIdx j q 0).val = (q ⟨0, by decide⟩).val :=
  dot_S10000x128_S128x128_S10000x128_1_0_0_1_n_n.rhsIdx_val_of_single rfl j q
/-- The right factor's column is the result's column. -/
private theorem blockDot_rhs_1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A [10000,128] by [128,128] product into a zero accumulator, at row r and column d: the sum over the 128 inner
    positions of the products of the factors' elements. -/
private theorem blockDot_apply (a : FVec Ideal S10000x128 .bf16) (b : FVec Ideal S128x128 .bf16) (r : Fin 10000) (d : Fin 128) :
    matmul dot_S10000x128_S128x128_S10000x128_1_0_0_1_n_n none a b (constant (F := Ideal) S10000x128 .f32 0x00000000#32) (ix2 r d)
      = ∑ c : Fin 128, a (ix2 r c) * b (ix2 c d) := by
  simp only [matmul]
  rw [Ideal.matmul_constant_zero_apply, ← Equiv.sum_comp (contrEquiv1 dot_S10000x128_S128x128_S10000x128_1_0_0_1_n_n 128 rfl rfl).symm]
  refine Finset.sum_congr rfl fun c _ => ?_
  have hc := contrEquiv1_symm_val dot_S10000x128_S128x128_S10000x128_1_0_0_1_n_n 128 rfl rfl c
  have el : dot_S10000x128_S128x128_S10000x128_1_0_0_1_n_n.lhsIdx (ix2 r d) ((contrEquiv1 dot_S10000x128_S128x128_S10000x128_1_0_0_1_n_n 128 rfl rfl).symm c) = ix2 r c := funext fun x => Fin.ext (by
    match x with
    | ⟨0, _⟩ => exact blockDot_lhs_0 _ _
    | ⟨1, _⟩ => exact (blockDot_lhs_1 _ _).trans hc)
  have er : dot_S10000x128_S128x128_S10000x128_1_0_0_1_n_n.rhsIdx (ix2 r d) ((contrEquiv1 dot_S10000x128_S128x128_S10000x128_1_0_0_1_n_n 128 rfl rfl).symm c) = ix2 c d := funext fun x => Fin.ext (by
    match x with
    | ⟨0, _⟩ => exact (blockDot_rhs_0 _ _).trans hc
    | ⟨1, _⟩ => exact blockDot_rhs_1 _ _)
  rw [el, er]

/-- A [1,10000,128] block seen as [10000,128], at row r and column c. -/
private theorem dropUnit_rows_apply {α : Type} (x : S1x10000x128.Idx → α) (h : S1x10000x128.ShapeCasts S10000x128) (r : Fin 10000) (c : Fin 128) :
    shapeCast S10000x128 x h (ix2 r c) = x (ix3 (0 : Fin 1) r c) := by
  refine (shapeCast_dropUnit_apply ![10000, 128] x h (ix2 r c)).trans (congrArg x ?_)
  funext a; match a with | ⟨0, _⟩ => rfl | ⟨1, _⟩ => rfl | ⟨2, _⟩ => rfl

/-- A [1,128,128] block seen as [128,128], at row c and column d. -/
private theorem dropUnit_weight_apply {α : Type} (x : S1x128x128.Idx → α) (h : S1x128x128.ShapeCasts S128x128) (c d : Fin 128) :
    shapeCast S128x128 x h (ix2 c d) = x (ix3 (0 : Fin 1) c d) := by
  refine (shapeCast_dropUnit_apply ![128, 128] x h (ix2 c d)).trans (congrArg x ?_)
  funext a; match a with | ⟨0, _⟩ => rfl | ⟨1, _⟩ => rfl | ⟨2, _⟩ => rfl

/-- A [10000,128] result stored as a [1,10000,128] block, at (0, r, d). -/
private theorem addUnit_rows_apply {α : Type} (y : S10000x128.Idx → α) (h : S10000x128.ShapeCasts S1x10000x128) (r : Fin 10000) (d : Fin 128) :
    shapeCast S1x10000x128 y h (ix3 (0 : Fin 1) r d) = y (ix2 r d) := by
  refine (shapeCast_addUnit_apply ![10000, 128] y h (ix3 (0 : Fin 1) r d)).trans (congrArg y ?_)
  funext a; match a with | ⟨0, _⟩ => rfl | ⟨1, _⟩ => rfl

/-- What the body stores, at (0, r, d): row r of the loaded slab block times column d of the loaded weight. -/
private theorem pay0_apply (x0 : Vec Ideal S1x10000x128 .f32) (x1 : Vec Ideal S1x128x128 .f32) (r : Fin 10000) (d : Fin 128) :
    k0_pay1 (F := Ideal) x0 x1 (ix3 (0 : Fin 1) r d) = ∑ c : Fin 128, x0 (ix3 (0 : Fin 1) r c) * x1 (ix3 (0 : Fin 1) c d) := by
  unfold k0_pay1
  rw [addUnit_rows_apply, blockDot_apply]
  refine Finset.sum_congr rfl fun c _ => ?_
  rw [truncf_apply, truncf_apply, dropUnit_rows_apply, dropUnit_weight_apply]

/-- The same body at its second place in the program stores the same product. -/
private theorem pay2_apply (x0 : Vec Ideal S1x10000x128 .f32) (x1 : Vec Ideal S1x128x128 .f32) (r : Fin 10000) (d : Fin 128) :
    k2_pay1 (F := Ideal) x0 x1 (ix3 (0 : Fin 1) r d) = ∑ c : Fin 128, x0 (ix3 (0 : Fin 1) r c) * x1 (ix3 (0 : Fin 1) c d) := by
  unfold k2_pay1
  rw [addUnit_rows_apply, blockDot_apply]
  refine Finset.sum_congr rfl fun c _ => ?_
  rw [truncf_apply, truncf_apply, dropUnit_rows_apply, dropUnit_weight_apply]

/-! ## The batched product of the whole operands at an index -/

/-- Slab k, row r, column d of the batched product: the sum over the 128 inner positions of slab k's row r of the left
    operand against column d of the k-th weight matrix. -/
private theorem prod_apply (g : FVec Ideal Cert.ReferenceIdeal.S27x50000x128 .f32) (w : FVec Ideal Cert.ReferenceIdeal.S27x128x128 .f32)
    (k : Fin 27) (r : Fin 50000) (d : Fin 128) :
    Cert.ReferenceIdeal.Spec.prod (F := Ideal) g w (ix3 k r d) = ∑ c : Fin 128, g (ix3 k r c) * w (ix3 k c d) := by
  unfold Cert.ReferenceIdeal.Spec.prod
  simp only [Host.dotGeneral]
  rw [Ideal.dotGeneral_apply, ← Equiv.sum_comp (contrEquiv1 Cert.ReferenceIdeal.dot_S27x50000x128_S27x128x128_S27x50000x128_2_1_1_2_0_0 128 rfl rfl).symm]
  refine Finset.sum_congr rfl fun c _ => ?_
  have hc := contrEquiv1_symm_val Cert.ReferenceIdeal.dot_S27x50000x128_S27x128x128_S27x50000x128_2_1_1_2_0_0 128 rfl rfl c
  have el : Cert.ReferenceIdeal.dot_S27x50000x128_S27x128x128_S27x50000x128_2_1_1_2_0_0.lhsIdx (ix3 k r d) ((contrEquiv1 Cert.ReferenceIdeal.dot_S27x50000x128_S27x128x128_S27x50000x128_2_1_1_2_0_0 128 rfl rfl).symm c) = ix3 k r c := funext fun x => Fin.ext (by
    match x with
    | ⟨0, _⟩ => exact Cert.ReferenceIdeal.Read.lhs_main_v7_0 _ _
    | ⟨1, _⟩ => exact Cert.ReferenceIdeal.Read.lhs_main_v7_1 _ _
    | ⟨2, _⟩ => exact (Cert.ReferenceIdeal.Read.lhs_main_v7_2 _ _).trans hc)
  have er : Cert.ReferenceIdeal.dot_S27x50000x128_S27x128x128_S27x50000x128_2_1_1_2_0_0.rhsIdx (ix3 k r d) ((contrEquiv1 Cert.ReferenceIdeal.dot_S27x50000x128_S27x128x128_S27x50000x128_2_1_1_2_0_0 128 rfl rfl).symm c) = ix3 k c d := funext fun x => Fin.ext (by
    match x with
    | ⟨0, _⟩ => exact Cert.ReferenceIdeal.Read.rhs_main_v7_0 _ _
    | ⟨1, _⟩ => exact (Cert.ReferenceIdeal.Read.rhs_main_v7_1 _ _).trans hc
    | ⟨2, _⟩ => exact Cert.ReferenceIdeal.Read.rhs_main_v7_2 _ _)
  rw [el, er]

/-- The staging buffers' whole-shape rectangle starts at the origin. -/
private theorem zero3 : (![0, 0, 0] : Fin 3 → Nat) = fun _ => 0 := funext fun a => by fin_cases a <;> rfl

variable (V : (c : Dev nD) → (b : Ref sig .tc) → Buf (Elt Ideal) ((c : Thread nD τ).loc b))

/-! ## Region 0: what a grid point writes back, and the blocks' cover -/

/-- The three index maps of region 0 over the 27 × 5 grid: the slab window and the result window sit at the same
    block, the weight window at the slab's own matrix, and the result's block indices stay inside 27 × 5 × 1. -/
private theorem idx_facts0 : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (0 : Fin 3) < 27
    ∧ win0_2.index t (1 : Fin 3) < 5
    ∧ win0_2.index t (2 : Fin 3) = 0 :=
  (by decide +kernel : ∀ t : Fin grid0.N, _)

/-- Every block (k, b, 0) of the result is some grid point's. -/
private theorem idx_onto0 : ∀ (q0 : Fin 27) (q1 : Fin 5), ∃ t : Fin cfg0.N, win0_2.index t = ![q0.val, q1.val, 0] :=
  (by decide +kernel : ∀ (q0 : Fin 27) (q1 : Fin 5), ∃ t : Fin grid0.N, win0_2.index t = ![q0.val, q1.val, 0])

/-- Grid point t writes back its block of the batched product of the operand arrays as the region finds them. -/
private theorem flushed0_eq (c : Dev nD) (t : Fin cfg0.N) :
    (dat0 (F := Ideal) V c).flushed 2 t
      = ((cfg0.win 2).blk t).view.read (Elt Ideal) (Cert.ReferenceIdeal.Spec.prod (F := Ideal) (V c main_v6) (V c main_arg1)) := by
  show (cfg0.win 2).cut (grid0.coords t) ((dat0 (F := Ideal) V c).after 2 t) = _
  rw [after0_2]
  unfold out0_2
  rw [View.canon_unit_zero zero3]
  simp only [View.ld_unit_zero (S := S1x10000x128) zero3, View.ld_unit_zero (S := S1x128x128) zero3]
  obtain ⟨e00, e01, e02, e10, e11, e12, h0, h1, e22⟩ := idx_facts0 t
  funext j
  obtain ⟨a, r, d, rfl⟩ : ∃ (a : Fin 1) (r : Fin 10000) (d : Fin 128), j = ix3 a r d := ⟨j 0, j 1, j 2, eq_ix3 j⟩
  obtain rfl : a = 0 := Fin.ext (by have := a.isLt; omega)
  have hr : r.val < 10000 := r.isLt
  show k0_pay1 (F := Ideal) (iblk0 V c 0 t) (iblk0 V c 1 t) (ix3 (0 : Fin 1) r d)
    = Cert.ReferenceIdeal.Spec.prod (F := Ideal) (V c main_v6) (V c main_arg1) (((cfg0.win 2).blk t).view.emb (ix3 (0 : Fin 1) r d))
  rw [pay0_apply]
  -- where the result block's element (0, r, d) sits in the array: slab k, row 10000·b + r, column d
  have e2 : ((cfg0.win 2).blk t).view.emb (ix3 (0 : Fin 1) r d)
      = ix3 (⟨win0_2.index t (0 : Fin 3), h0⟩ : Fin 27) (⟨win0_2.index t (1 : Fin 3) * 10000 + r.val, by omega⟩ : Fin 50000) d := by
    funext x; apply Fin.ext
    match x with
    | ⟨0, _⟩ => show win0_2.index t (0 : Fin 3) * 1 + 1 * 0 = win0_2.index t (0 : Fin 3); omega
    | ⟨1, _⟩ => show win0_2.index t (1 : Fin 3) * 10000 + 1 * r.val = win0_2.index t (1 : Fin 3) * 10000 + r.val; omega
    | ⟨2, _⟩ => show win0_2.index t (2 : Fin 3) * 128 + 1 * d.val = d.val; omega
  rw [e2, prod_apply (V c main_v6) (V c main_arg1)]
  refine Finset.sum_congr rfl fun q _ => ?_
  -- the slab block's element (0, r, q) is the array's (k, 10000·b + r, q)
  have e0 : ((cfg0.win 0).blk t).view.emb (ix3 (0 : Fin 1) r q)
      = ix3 (⟨win0_2.index t (0 : Fin 3), h0⟩ : Fin 27) (⟨win0_2.index t (1 : Fin 3) * 10000 + r.val, by omega⟩ : Fin 50000) q := by
    funext x; apply Fin.ext
    match x with
    | ⟨0, _⟩ => show win0_0.index t (0 : Fin 3) * 1 + 1 * 0 = win0_2.index t (0 : Fin 3); omega
    | ⟨1, _⟩ => show win0_0.index t (1 : Fin 3) * 10000 + 1 * r.val = win0_2.index t (1 : Fin 3) * 10000 + r.val; omega
    | ⟨2, _⟩ => show win0_0.index t (2 : Fin 3) * 128 + 1 * q.val = q.val; omega
  -- the weight block's element (0, q, d) is the array's (k, q, d)
  have e1 : ((cfg0.win 1).blk t).view.emb (ix3 (0 : Fin 1) q d)
      = ix3 (⟨win0_2.index t (0 : Fin 3), h0⟩ : Fin 27) q d := by
    funext x; apply Fin.ext
    match x with
    | ⟨0, _⟩ => show win0_1.index t (0 : Fin 3) * 1 + 1 * 0 = win0_2.index t (0 : Fin 3); omega
    | ⟨1, _⟩ => show win0_1.index t (1 : Fin 3) * 128 + 1 * q.val = q.val; omega
    | ⟨2, _⟩ => show win0_1.index t (2 : Fin 3) * 128 + 1 * d.val = d.val; omega
  -- a loaded block reads its array where the block's rectangle says
  have hL : iblk0 V c 0 t (ix3 (0 : Fin 1) r q)
      = V c main_v6 (ix3 (⟨win0_2.index t (0 : Fin 3), h0⟩ : Fin 27) (⟨win0_2.index t (1 : Fin 3) * 10000 + r.val, by omega⟩ : Fin 50000) q) :=
    congrArg (V c main_v6) e0
  have hR : iblk0 V c 1 t (ix3 (0 : Fin 1) q d) = V c main_arg1 (ix3 (⟨win0_2.index t (0 : Fin 3), h0⟩ : Fin 27) q d) :=
    congrArg (V c main_arg1) e1
  rw [hL, hR]

/-- An index of the result array is in point t's block iff each coordinate is in the block's range on its axis. -/
private theorem mem_blk0 (t : Fin cfg0.N) (i : S27x50000x128.Idx) :
    i ∈ ((cfg0.win 2).blk t).view.set ↔ ∀ a : Fin 3, win0_2.index t a * S1x10000x128.size a ≤ (i a).val ∧ (i a).val < win0_2.index t a * S1x10000x128.size a + S1x10000x128.size a := by
  show i ∈ ((View.whole main_v7).slice (win0_2.rect t)).set ↔ _
  rw [View.set_slice_whole, Rect.mem_set_unit]
  exact Iff.rfl

/-- Every index (k, r, d) of the result lies in the block of the point whose result block is (k, r / 10000, 0). -/
private theorem cover0 (i : S27x50000x128.Idx) :
    ∃ t : Fin cfg0.N, (cfg0.win 2).flush t = true ∧ i ∈ ((cfg0.win 2).blk t).view.set := by
  have hi0 : (i 0).val < 27 := (i 0).isLt
  have hi1 : (i 1).val < 50000 := (i 1).isLt
  have hi2 : (i 2).val < 128 := (i 2).isLt
  obtain ⟨t, ht⟩ := idx_onto0 ⟨(i 0).val, hi0⟩ ⟨(i 1).val / 10000, by omega⟩
  have q0 : win0_2.index t (0 : Fin 3) = (i 0).val := congrFun ht 0
  have q1 : win0_2.index t (1 : Fin 3) = (i 1).val / 10000 := congrFun ht 1
  have q2 : win0_2.index t (2 : Fin 3) = 0 := congrFun ht 2
  refine ⟨t, flush0_2 t, ?_⟩
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 10000 ≤ (i 1).val ∧ (i 1).val < win0_2.index t (1 : Fin 3) * 10000 + 10000; omega
  | ⟨2, _⟩ => show win0_2.index t (2 : Fin 3) * 128 ≤ (i 2).val ∧ (i 2).val < win0_2.index t (2 : Fin 3) * 128 + 128; omega

/-- Region 0's result array is the batched product of its two operand arrays as the region finds them. -/
theorem gemm_region0 (c : Dev nD) :
    ((dat0 (F := Ideal) V c).arrAt 2 cfg0.N : FVec Ideal S27x50000x128 .f32)
      = Cert.ReferenceIdeal.Spec.prod (F := Ideal) (V c main_v6) (V c main_arg1) :=
  (dat0 (F := Ideal) V c).arrAt_eq_of_cover 2 _ (fun t _ => flushed0_eq V c t) (fun i => cover0 i)

/-! ## Region 2: what a grid point writes back, and the blocks' cover -/

/-- The three index maps of region 2 over the 27 × 5 grid: the slab window and the result window sit at the same
    block, the weight window at the slab's own matrix, and the result's block indices stay inside 27 × 5 × 1. -/
private theorem idx_facts2 : ∀ t : Fin cfg2.N,
    win2_0.index t (0 : Fin 3) = win2_2.index t (0 : Fin 3)
    ∧ win2_0.index t (1 : Fin 3) = win2_2.index t (1 : Fin 3)
    ∧ win2_0.index t (2 : Fin 3) = 0
    ∧ win2_1.index t (0 : Fin 3) = win2_2.index t (0 : Fin 3)
    ∧ win2_1.index t (1 : Fin 3) = 0
    ∧ win2_1.index t (2 : Fin 3) = 0
    ∧ win2_2.index t (0 : Fin 3) < 27
    ∧ win2_2.index t (1 : Fin 3) < 5
    ∧ win2_2.index t (2 : Fin 3) = 0 :=
  (by decide +kernel : ∀ t : Fin grid2.N, _)

/-- Every block (k, b, 0) of the result is some grid point's. -/
private theorem idx_onto2 : ∀ (q0 : Fin 27) (q1 : Fin 5), ∃ t : Fin cfg2.N, win2_2.index t = ![q0.val, q1.val, 0] :=
  (by decide +kernel : ∀ (q0 : Fin 27) (q1 : Fin 5), ∃ t : Fin grid2.N, win2_2.index t = ![q0.val, q1.val, 0])

/-- Grid point t writes back its block of the batched product of the operand arrays as the region finds them. -/
private theorem flushed2_eq (c : Dev nD) (t : Fin cfg2.N) :
    (dat2 (F := Ideal) V c).flushed 2 t
      = ((cfg2.win 2).blk t).view.read (Elt Ideal) (Cert.ReferenceIdeal.Spec.prod (F := Ideal) (V c main_v33) (V c main_arg4)) := by
  show (cfg2.win 2).cut (grid2.coords t) ((dat2 (F := Ideal) V c).after 2 t) = _
  rw [after2_2]
  unfold out2_2
  rw [View.canon_unit_zero zero3]
  simp only [View.ld_unit_zero (S := S1x10000x128) zero3, View.ld_unit_zero (S := S1x128x128) zero3]
  obtain ⟨e00, e01, e02, e10, e11, e12, h0, h1, e22⟩ := idx_facts2 t
  funext j
  obtain ⟨a, r, d, rfl⟩ : ∃ (a : Fin 1) (r : Fin 10000) (d : Fin 128), j = ix3 a r d := ⟨j 0, j 1, j 2, eq_ix3 j⟩
  obtain rfl : a = 0 := Fin.ext (by have := a.isLt; omega)
  have hr : r.val < 10000 := r.isLt
  show k2_pay1 (F := Ideal) (iblk2 V c 0 t) (iblk2 V c 1 t) (ix3 (0 : Fin 1) r d)
    = Cert.ReferenceIdeal.Spec.prod (F := Ideal) (V c main_v33) (V c main_arg4) (((cfg2.win 2).blk t).view.emb (ix3 (0 : Fin 1) r d))
  rw [pay2_apply]
  -- where the result block's element (0, r, d) sits in the array: slab k, row 10000·b + r, column d
  have e2 : ((cfg2.win 2).blk t).view.emb (ix3 (0 : Fin 1) r d)
      = ix3 (⟨win2_2.index t (0 : Fin 3), h0⟩ : Fin 27) (⟨win2_2.index t (1 : Fin 3) * 10000 + r.val, by omega⟩ : Fin 50000) d := by
    funext x; apply Fin.ext
    match x with
    | ⟨0, _⟩ => show win2_2.index t (0 : Fin 3) * 1 + 1 * 0 = win2_2.index t (0 : Fin 3); omega
    | ⟨1, _⟩ => show win2_2.index t (1 : Fin 3) * 10000 + 1 * r.val = win2_2.index t (1 : Fin 3) * 10000 + r.val; omega
    | ⟨2, _⟩ => show win2_2.index t (2 : Fin 3) * 128 + 1 * d.val = d.val; omega
  rw [e2, prod_apply (V c main_v33) (V c main_arg4)]
  refine Finset.sum_congr rfl fun q _ => ?_
  -- the slab block's element (0, r, q) is the array's (k, 10000·b + r, q)
  have e0 : ((cfg2.win 0).blk t).view.emb (ix3 (0 : Fin 1) r q)
      = ix3 (⟨win2_2.index t (0 : Fin 3), h0⟩ : Fin 27) (⟨win2_2.index t (1 : Fin 3) * 10000 + r.val, by omega⟩ : Fin 50000) q := by
    funext x; apply Fin.ext
    match x with
    | ⟨0, _⟩ => show win2_0.index t (0 : Fin 3) * 1 + 1 * 0 = win2_2.index t (0 : Fin 3); omega
    | ⟨1, _⟩ => show win2_0.index t (1 : Fin 3) * 10000 + 1 * r.val = win2_2.index t (1 : Fin 3) * 10000 + r.val; omega
    | ⟨2, _⟩ => show win2_0.index t (2 : Fin 3) * 128 + 1 * q.val = q.val; omega
  -- the weight block's element (0, q, d) is the array's (k, q, d)
  have e1 : ((cfg2.win 1).blk t).view.emb (ix3 (0 : Fin 1) q d)
      = ix3 (⟨win2_2.index t (0 : Fin 3), h0⟩ : Fin 27) q d := by
    funext x; apply Fin.ext
    match x with
    | ⟨0, _⟩ => show win2_1.index t (0 : Fin 3) * 1 + 1 * 0 = win2_2.index t (0 : Fin 3); omega
    | ⟨1, _⟩ => show win2_1.index t (1 : Fin 3) * 128 + 1 * q.val = q.val; omega
    | ⟨2, _⟩ => show win2_1.index t (2 : Fin 3) * 128 + 1 * d.val = d.val; omega
  -- a loaded block reads its array where the block's rectangle says
  have hL : iblk2 V c 0 t (ix3 (0 : Fin 1) r q)
      = V c main_v33 (ix3 (⟨win2_2.index t (0 : Fin 3), h0⟩ : Fin 27) (⟨win2_2.index t (1 : Fin 3) * 10000 + r.val, by omega⟩ : Fin 50000) q) :=
    congrArg (V c main_v33) e0
  have hR : iblk2 V c 1 t (ix3 (0 : Fin 1) q d) = V c main_arg4 (ix3 (⟨win2_2.index t (0 : Fin 3), h0⟩ : Fin 27) q d) :=
    congrArg (V c main_arg4) e1
  rw [hL, hR]

/-- An index of the result array is in point t's block iff each coordinate is in the block's range on its axis. -/
private theorem mem_blk2 (t : Fin cfg2.N) (i : S27x50000x128.Idx) :
    i ∈ ((cfg2.win 2).blk t).view.set ↔ ∀ a : Fin 3, win2_2.index t a * S1x10000x128.size a ≤ (i a).val ∧ (i a).val < win2_2.index t a * S1x10000x128.size a + S1x10000x128.size a := by
  show i ∈ ((View.whole main_v34).slice (win2_2.rect t)).set ↔ _
  rw [View.set_slice_whole, Rect.mem_set_unit]
  exact Iff.rfl

/-- Every index (k, r, d) of the result lies in the block of the point whose result block is (k, r / 10000, 0). -/
private theorem cover2 (i : S27x50000x128.Idx) :
    ∃ t : Fin cfg2.N, (cfg2.win 2).flush t = true ∧ i ∈ ((cfg2.win 2).blk t).view.set := by
  have hi0 : (i 0).val < 27 := (i 0).isLt
  have hi1 : (i 1).val < 50000 := (i 1).isLt
  have hi2 : (i 2).val < 128 := (i 2).isLt
  obtain ⟨t, ht⟩ := idx_onto2 ⟨(i 0).val, hi0⟩ ⟨(i 1).val / 10000, by omega⟩
  have q0 : win2_2.index t (0 : Fin 3) = (i 0).val := congrFun ht 0
  have q1 : win2_2.index t (1 : Fin 3) = (i 1).val / 10000 := congrFun ht 1
  have q2 : win2_2.index t (2 : Fin 3) = 0 := congrFun ht 2
  refine ⟨t, flush2_2 t, ?_⟩
  rw [mem_blk2]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 10000 ≤ (i 1).val ∧ (i 1).val < win2_2.index t (1 : Fin 3) * 10000 + 10000; omega
  | ⟨2, _⟩ => show win2_2.index t (2 : Fin 3) * 128 ≤ (i 2).val ∧ (i 2).val < win2_2.index t (2 : Fin 3) * 128 + 128; omega

/-- Region 2's result array is the batched product of its two operand arrays as the region finds them. -/
theorem gemm_region2 (c : Dev nD) :
    ((dat2 (F := Ideal) V c).arrAt 2 cfg2.N : FVec Ideal S27x50000x128 .f32)
      = Cert.ReferenceIdeal.Spec.prod (F := Ideal) (V c main_v33) (V c main_arg4) :=
  (dat2 (F := Ideal) V c).arrAt_eq_of_cover 2 _ (fun t _ => flushed2_eq V c t) (fun i => cover2 i)

end Cert.KernelIdeal.Conv

end
-- ==== Proof.BnRegionAux.lean ====
/-
  One entry of a normalised array, and the two normalisation bodies read at an index of their block: at row r and
  channel d the first body computes max((y − μ)·rsqrt(σ² + ε)·γ + β, 0) of the block's element y and the channel's
  four values; the second adds the skip block's element before the clamp. A channel vector enters a body as one row
  repeated down the block's 10000 rows.
-/
import proofs.«139614_j8418135900537_1_alg».proof.Proof.Gen.KernelIdeal.Skeleton
import Idealize.ShloMosaic.PureOps.Ideal
import Idealize.ShloMosaic.Lib.Pipeline.Value
import Idealize.ShloMosaic.Lib.ValueIdx

set_option maxRecDepth 16384

noncomputable section

open Idealize.ShloMosaic Idealize.SL.Sem

namespace Cert.KernelIdeal.Conv

open Cert.KernelIdeal Cert.KernelIdeal.Gen
open Idealize.ShloMosaic.ValueIdx

/-! ## One entry of the normalised array -/

/-- The entry both sides compute from one element `y` of the convolution's output and its channel's mean, variance,
    scale and shift: max((y − μ)·rsqrt(σ² + ε)·γ + β, 0), on the extended reals; ε is the word both programs carry. -/
def bnEntry (y μ σ2 γ β : EReal) : EReal :=
  max ((y - μ) * Ideal.rsqrt (σ2 + Ideal.ofBits .f32 0x3727C5AC#32) * γ + β) (Ideal.ofBits .f32 0x00000000#32)

/-- The same with a skip entry `x` added before the clamp. -/
def bnAddEntry (y μ σ2 γ β x : EReal) : EReal :=
  max ((y - μ) * Ideal.rsqrt (σ2 + Ideal.ofBits .f32 0x3727C5AC#32) * γ + β + x) (Ideal.ofBits .f32 0x00000000#32)

/-! ## The kernel bodies at an index -/

/-- A channel vector viewed as one row and repeated down the 10000 rows of a block reads, at row `r` and channel `d`,
    its entry `d`. -/
theorem bnBlockRows_apply (v : FVec Ideal S128 .f32) (r : Fin 10000) (d : Fin 128) :
    broadcastTo S10000x128 (shapeCast S1x128 v shapeCasts_S128_S1x128) broadcasts_S1x128_S10000x128 (ix2 r d) = v (ix1 d) := by
  refine (broadcastTo_apply _ broadcasts_S1x128_S10000x128 (ix2 r d) (ix2 (0 : Fin 1) d) (fun a => ?_)).trans ?_
  · match a with
    | ⟨0, _⟩ => rfl
    | ⟨1, _⟩ => rfl
  · refine (shapeCast_addUnit_apply ![128] v shapeCasts_S128_S1x128 (ix2 (0 : Fin 1) d)).trans ?_
    exact congrArg v (funext fun a => match a with | ⟨0, _⟩ => rfl)

/-- Region 1's body at row `r`, channel `d` of its block: the entry of the block's element and the channel's four values.
    (The body loads the variance first, then the mean, the scale and the shift.) -/
theorem bnPay1_apply (x0 : Vec Ideal S10000x128 .f32) (σ2 μ γ β : Vec Ideal S128 .f32) (r : Fin 10000) (d : Fin 128) :
    k1_pay1 (F := Ideal) x0 σ2 μ γ β (ix2 r d)
      = bnEntry (x0 (ix2 r d)) (μ (ix1 d)) (σ2 (ix1 d)) (γ (ix1 d)) (β (ix1 d)) := by
  unfold k1_pay1
  simp only [shapeCast_self]
  show max ((x0 (ix2 r d) - _) * _ * _ + _) _ = _
  rw [bnBlockRows_apply, bnBlockRows_apply, bnBlockRows_apply, bnBlockRows_apply]
  rfl

/-- Region 3's body at row `r`, channel `d` of its block: the same entry with the skip block's element added before the clamp. -/
theorem bnPay3_apply (x0 : Vec Ideal S10000x128 .f32) (σ2 μ γ β : Vec Ideal S128 .f32) (x5 : Vec Ideal S10000x128 .f32)
    (r : Fin 10000) (d : Fin 128) :
    k3_pay1 (F := Ideal) x0 σ2 μ γ β x5 (ix2 r d)
      = bnAddEntry (x0 (ix2 r d)) (μ (ix1 d)) (σ2 (ix1 d)) (γ (ix1 d)) (β (ix1 d)) (x5 (ix2 r d)) := by
  unfold k3_pay1
  simp only [shapeCast_self]
  show max ((x0 (ix2 r d) - _) * _ * _ + _ + x5 (ix2 r d)) _ = _
  rw [bnBlockRows_apply, bnBlockRows_apply, bnBlockRows_apply, bnBlockRows_apply]
  rfl

end Cert.KernelIdeal.Conv

end
-- ==== Proof.BnRegion.lean ====
/-
  The two normalisation regions. Each of the 10 grid points loads rows 10000·t … 10000·t + 9999 of the
  convolution's output with the four channel vectors (scale, shift, mean, variance) whole, and writes
  max((y − μ)·rsqrt(σ² + ε)·γ + β, 0) — the second region adds the skip input's rows before the clamp — to the same
  rows of the result; the 10 blocks tile the result.
-/
import proofs.«139614_j8418135900537_1_alg».proof.Proof.Gen.KernelIdeal.Frame
import proofs.«139614_j8418135900537_1_alg».proof.Proof.Spec
import proofs.«139614_j8418135900537_1_alg».proof.Proof.BnRegionAux
import Idealize.ShloMosaic.PureOps.Ideal
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen
open Idealize.ShloMosaic.ValueIdx

/-! ## The specification at an index -/

/-- A channel vector repeated along the 100000 rows reads, at row `R` and channel `d`, its entry `d`. -/
private theorem rows_apply (v : FVec Ideal S128 .f32) (R : Fin 100000) (d : Fin 128) :
    Cert.ReferenceIdeal.Spec.rows (F := Ideal) v (ix2 R d) = v (ix1 d) := by
  unfold Cert.ReferenceIdeal.Spec.rows
  refine (broadcastInDim_apply _ _ _ (ix2 R d) (ix2 (0 : Fin 1) d) (fun a => ?_)).trans ?_
  · match a with
    | ⟨0, _⟩ => rfl
    | ⟨1, _⟩ => rfl
  · refine (broadcastInDim_apply _ _ v (ix2 (0 : Fin 1) d) (ix1 d) (fun a => ?_))
    match a with
    | ⟨0, _⟩ => rfl

/-- The specification of the first normalisation at row `R`, channel `d`. -/
private theorem bnRelu_apply (y : FVec Ideal S100000x128 .f32) (γ β μ σ2 : FVec Ideal S128 .f32) (R : Fin 100000) (d : Fin 128) :
    Cert.ReferenceIdeal.Spec.bnRelu (F := Ideal) y γ β μ σ2 (ix2 R d)
      = bnEntry (y (ix2 R d)) (μ (ix1 d)) (σ2 (ix1 d)) (γ (ix1 d)) (β (ix1 d)) := by
  unfold Cert.ReferenceIdeal.Spec.bnRelu Cert.ReferenceIdeal.Spec.relu Cert.ReferenceIdeal.Spec.affine
  show max ((y (ix2 R d) - Cert.ReferenceIdeal.Spec.rows (F := Ideal) μ (ix2 R d)) * Cert.ReferenceIdeal.Spec.rows (F := Ideal) _ (ix2 R d)
    * Cert.ReferenceIdeal.Spec.rows (F := Ideal) γ (ix2 R d) + Cert.ReferenceIdeal.Spec.rows (F := Ideal) β (ix2 R d)) _ = _
  rw [rows_apply, rows_apply, rows_apply, rows_apply]
  rfl

/-- The specification of the second normalisation at row `R`, channel `d`. -/
private theorem bnAddRelu_apply (y : FVec Ideal S100000x128 .f32) (γ β μ σ2 : FVec Ideal S128 .f32) (x : FVec Ideal S100000x128 .f32)
    (R : Fin 100000) (d : Fin 128) :
    Cert.ReferenceIdeal.Spec.bnAddRelu (F := Ideal) y γ β μ σ2 x (ix2 R d)
      = bnAddEntry (y (ix2 R d)) (μ (ix1 d)) (σ2 (ix1 d)) (γ (ix1 d)) (β (ix1 d)) (x (ix2 R d)) := by
  unfold Cert.ReferenceIdeal.Spec.bnAddRelu Cert.ReferenceIdeal.Spec.relu Cert.ReferenceIdeal.Spec.affine
  show max ((y (ix2 R d) - Cert.ReferenceIdeal.Spec.rows (F := Ideal) μ (ix2 R d)) * Cert.ReferenceIdeal.Spec.rows (F := Ideal) _ (ix2 R d)
    * Cert.ReferenceIdeal.Spec.rows (F := Ideal) γ (ix2 R d) + Cert.ReferenceIdeal.Spec.rows (F := Ideal) β (ix2 R d) + x (ix2 R d)) _ = _
  rw [rows_apply, rows_apply, rows_apply, rows_apply]
  rfl

variable (V : (c : Dev nD) → (b : Ref sig .tc) → Buf (Elt Ideal) ((c : Thread nD τ).loc b))

/-! ## Region 1: what a grid point reads and writes -/

private theorem zeros2 : (![0, 0] : Fin 2 → Nat) = fun _ => 0 := funext fun a => by fin_cases a <;> rfl
private theorem zeros1 : (![0] : Fin 1 → Nat) = fun _ => 0 := funext fun a => by fin_cases a; rfl

/-- Region 1's index maps over its ten points: the row blocks of the input and of the result sit at block row `t`, block
    column 0; each channel vector is its one block. -/
private theorem blocks1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 1) = 0 ∧ win1_2.index t (0 : Fin 1) = 0
    ∧ win1_3.index t (0 : Fin 1) = 0 ∧ win1_4.index t (0 : Fin 1) = 0 :=
  (by decide +kernel : ∀ t : Fin grid1.N, _)

/-- The input's row block at point `t`, at row `r` and channel `d`, is the array's row `10000·t + r`. -/
private theorem yblock1_apply (c : Dev nD) (t : Fin cfg1.N) (r : Fin 10000) (d : Fin 128) (R : Fin 100000)
    (hR : R.val = t.val * 10000 + r.val) :
    (iblk1 (F := Ideal) V c 0 t : Vec Ideal S10000x128 .f32) (ix2 r d) = (V c main_v15 : S100000x128.Idx → EReal) (ix2 R d) := by
  obtain ⟨e0, e1, -⟩ := blocks1 t
  unfold iblk1
  rw [View.read_apply]
  show V c main_v15 _ = V c main_v15 _
  congr 1
  funext a
  apply Fin.ext
  match a with
  | ⟨0, _⟩ => show win1_0.index t (0 : Fin 2) * 10000 + 1 * r.val = R.val; rw [e0, hR]; omega
  | ⟨1, _⟩ => show win1_0.index t (1 : Fin 2) * 128 + 1 * d.val = d.val; rw [e1]; omega

/-- Each channel vector's block at any point is the vector. -/
private theorem vblocks1_apply (c : Dev nD) (t : Fin cfg1.N) (d : Fin 128) :
    (iblk1 (F := Ideal) V c 1 t : Vec Ideal S128 .f32) (ix1 d) = (V c main_arg2 : S128.Idx → EReal) (ix1 d)
    ∧ (iblk1 (F := Ideal) V c 2 t : Vec Ideal S128 .f32) (ix1 d) = (V c main_arg3 : S128.Idx → EReal) (ix1 d)
    ∧ (iblk1 (F := Ideal) V c 3 t : Vec Ideal S128 .f32) (ix1 d) = (V c main_v18 : S128.Idx → EReal) (ix1 d)
    ∧ (iblk1 (F := Ideal) V c 4 t : Vec Ideal S128 .f32) (ix1 d) = (V c main_v25 : S128.Idx → EReal) (ix1 d) := by
  obtain ⟨-, -, -, -, e1, e2, e3, e4⟩ := blocks1 t
  refine ⟨?_, ?_, ?_, ?_⟩
  · unfold iblk1; rw [View.read_apply]; show V c main_arg2 _ = V c main_arg2 _
    congr 1; funext a; apply Fin.ext
    match a with
    | ⟨0, _⟩ => show win1_1.index t (0 : Fin 1) * 128 + 1 * d.val = d.val; rw [e1]; omega
  · unfold iblk1; rw [View.read_apply]; show V c main_arg3 _ = V c main_arg3 _
    congr 1; funext a; apply Fin.ext
    match a with
    | ⟨0, _⟩ => show win1_2.index t (0 : Fin 1) * 128 + 1 * d.val = d.val; rw [e2]; omega
  · unfold iblk1; rw [View.read_apply]; show V c main_v18 _ = V c main_v18 _
    congr 1; funext a; apply Fin.ext
    match a with
    | ⟨0, _⟩ => show win1_3.index t (0 : Fin 1) * 128 + 1 * d.val = d.val; rw [e3]; omega
  · unfold iblk1; rw [View.read_apply]; show V c main_v25 _ = V c main_v25 _
    congr 1; funext a; apply Fin.ext
    match a with
    | ⟨0, _⟩ => show win1_4.index t (0 : Fin 1) * 128 + 1 * d.val = d.val; rw [e4]; omega

/-- What point `t` of region 1 writes back is its row block of the specified array. -/
private theorem flushed1_eq (c : Dev nD) (t : Fin cfg1.N) :
    (dat1 (F := Ideal) V c).flushed 5 t
      = ((cfg1.win 5).blk t).view.read (Elt Ideal)
          (Cert.ReferenceIdeal.Spec.bnRelu (F := Ideal) (V c main_v15) (V c main_arg2) (V c main_arg3) (V c main_v18) (V c main_v25)) := by
  show (cfg1.win 5).cut (grid1.coords t) ((dat1 V c).after 5 t) = _
  rw [after1_5]
  unfold out1_5
  rw [View.canon_unit_zero zeros2]
  simp only [View.ld_unit_zero (S := S10000x128) zeros2, View.ld_unit_zero (S := S128) zeros1]
  funext j
  obtain ⟨r, d, rfl⟩ : ∃ (r : Fin 10000) (d : Fin 128), j = ix2 r d := ⟨j 0, j 1, eq_ix2 j⟩
  have hlt : t.val < 10 := lt_of_lt_of_eq t.isLt N_1
  obtain ⟨R, hR⟩ : ∃ R : Fin 100000, R.val = t.val * 10000 + r.val := ⟨⟨t.val * 10000 + r.val, by omega⟩, rfl⟩
  obtain ⟨-, -, e0, e1, -⟩ := blocks1 t
  have hemb : ((cfg1.win 5).blk t).view.emb (ix2 r d)
      = (ix2 R d : S100000x128.Idx) := by
    funext a; apply Fin.ext
    match a with
    | ⟨0, _⟩ => show win1_5.index t (0 : Fin 2) * 10000 + 1 * r.val = R.val; rw [e0, hR]; omega
    | ⟨1, _⟩ => show win1_5.index t (1 : Fin 2) * 128 + 1 * d.val = d.val; rw [e1]; omega
  show k1_pay1 (F := Ideal) (iblk1 V c 0 t) (iblk1 V c 4 t) (iblk1 V c 3 t) (iblk1 V c 1 t) (iblk1 V c 2 t) (ix2 r d)
    = Cert.ReferenceIdeal.Spec.bnRelu (F := Ideal) (V c main_v15) (V c main_arg2) (V c main_arg3) (V c main_v18) (V c main_v25)
        (((cfg1.win 5).blk t).view.emb (ix2 r d))
  rw [hemb, bnRelu_apply]
  refine (bnPay1_apply _ _ _ _ _ r d).trans ?_
  obtain ⟨h1, h2, h3, h4⟩ := vblocks1_apply V c t d
  rw [yblock1_apply V c t r d R hR, h1, h2, h3, h4]

/-! ## Region 1: the ten row blocks tile the result -/

/-- An index of the result lies in point `t`'s block iff each coordinate is in the block's range on its axis. -/
private theorem mem_blk1 (t : Fin cfg1.N) (i : S100000x128.Idx) :
    i ∈ ((cfg1.win 5).blk t).view.set ↔ ∀ a : Fin 2, win1_5.index t a * S10000x128.size a ≤ (i a).val
      ∧ (i a).val < win1_5.index t a * S10000x128.size a + S10000x128.size a := by
  show i ∈ ((View.whole main_v26).slice (win1_5.rect t)).set ↔ _
  rw [View.set_slice_whole, Rect.mem_set_unit]
  exact Iff.rfl

/-- Row `R` of the result lies in the block of point `R / 10000`, and every point writes back. -/
private theorem cover1 (i : S100000x128.Idx) :
    ∃ t : Fin cfg1.N, (cfg1.win 5).flush t = true ∧ i ∈ ((cfg1.win 5).blk t).view.set := by
  have h0 : (i 0).val < 100000 := (i 0).isLt
  have h1 : (i 1).val < 128 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, e0, e1, -⟩ := blocks1 t
  refine ⟨t, flush1_5 t, ?_⟩
  rw [mem_blk1]
  intro a
  match a with
  | ⟨0, _⟩ =>
    show win1_5.index t (0 : Fin 2) * 10000 ≤ (i 0).val ∧ (i 0).val < win1_5.index t (0 : Fin 2) * 10000 + 10000
    rw [e0, ht]; omega
  | ⟨1, _⟩ =>
    show win1_5.index t (1 : Fin 2) * 128 ≤ (i 1).val ∧ (i 1).val < win1_5.index t (1 : Fin 2) * 128 + 128
    rw [e1]; omega

/-- Region 1's result array: normalise, scale, shift, clamp, of the arrays the region finds. -/
theorem bn_region1 (c : Dev nD) :
    ((dat1 (F := Ideal) V c).arrAt 5 cfg1.N : FVec Ideal S100000x128 .f32)
      = Cert.ReferenceIdeal.Spec.bnRelu (F := Ideal) (V c main_v15) (V c main_arg2) (V c main_arg3) (V c main_v18) (V c main_v25) :=
  (dat1 (F := Ideal) V c).arrAt_eq_of_cover 5 _ (fun t _ => flushed1_eq V c t) cover1

/-! ## Region 3: what a grid point reads and writes -/

/-- Region 3's index maps over its ten points: the row blocks of the input, of the skip input and of the result sit at
    block row `t`, block column 0; each channel vector is its one block. -/
private theorem blocks3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_1.index t (0 : Fin 1) = 0 ∧ win3_2.index t (0 : Fin 1) = 0
    ∧ win3_3.index t (0 : Fin 1) = 0 ∧ win3_4.index t (0 : Fin 1) = 0 :=
  (by decide +kernel : ∀ t : Fin grid3.N, _)

/-- The input's and the skip input's row blocks at point `t`, at row `r` and channel `d`, are the arrays' row `10000·t + r`. -/
private theorem yblocks3_apply (c : Dev nD) (t : Fin cfg3.N) (r : Fin 10000) (d : Fin 128) (R : Fin 100000)
    (hR : R.val = t.val * 10000 + r.val) :
    (iblk3 (F := Ideal) V c 0 t : Vec Ideal S10000x128 .f32) (ix2 r d) = (V c main_v42 : S100000x128.Idx → EReal) (ix2 R d)
    ∧ (iblk3 (F := Ideal) V c 5 t : Vec Ideal S10000x128 .f32) (ix2 r d) = (V c main_arg0 : S100000x128.Idx → EReal) (ix2 R d) := by
  obtain ⟨e0, e1, f0, f1, -⟩ := blocks3 t
  refine ⟨?_, ?_⟩
  · unfold iblk3; rw [View.read_apply]; show V c main_v42 _ = V c main_v42 _
    congr 1; funext a; apply Fin.ext
    match a with
    | ⟨0, _⟩ => show win3_0.index t (0 : Fin 2) * 10000 + 1 * r.val = R.val; rw [e0, hR]; omega
    | ⟨1, _⟩ => show win3_0.index t (1 : Fin 2) * 128 + 1 * d.val = d.val; rw [e1]; omega
  · unfold iblk3; rw [View.read_apply]; show V c main_arg0 _ = V c main_arg0 _
    congr 1; funext a; apply Fin.ext
    match a with
    | ⟨0, _⟩ => show win3_5.index t (0 : Fin 2) * 10000 + 1 * r.val = R.val; rw [f0, hR]; omega
    | ⟨1, _⟩ => show win3_5.index t (1 : Fin 2) * 128 + 1 * d.val = d.val; rw [f1]; omega

/-- Each channel vector's block at any point is the vector. -/
private theorem vblocks3_apply (c : Dev nD) (t : Fin cfg3.N) (d : Fin 128) :
    (iblk3 (F := Ideal) V c 1 t : Vec Ideal S128 .f32) (ix1 d) = (V c main_arg5 : S128.Idx → EReal) (ix1 d)
    ∧ (iblk3 (F := Ideal) V c 2 t : Vec Ideal S128 .f32) (ix1 d) = (V c main_arg6 : S128.Idx → EReal) (ix1 d)
    ∧ (iblk3 (F := Ideal) V c 3 t : Vec Ideal S128 .f32) (ix1 d) = (V c main_v45 : S128.Idx → EReal) (ix1 d)
    ∧ (iblk3 (F := Ideal) V c 4 t : Vec Ideal S128 .f32) (ix1 d) = (V c main_v52 : S128.Idx → EReal) (ix1 d) := by
  obtain ⟨-, -, -, -, -, -, e1, e2, e3, e4⟩ := blocks3 t
  refine ⟨?_, ?_, ?_, ?_⟩
  · unfold iblk3; rw [View.read_apply]; show V c main_arg5 _ = V c main_arg5 _
    congr 1; funext a; apply Fin.ext
    match a with
    | ⟨0, _⟩ => show win3_1.index t (0 : Fin 1) * 128 + 1 * d.val = d.val; rw [e1]; omega
  · unfold iblk3; rw [View.read_apply]; show V c main_arg6 _ = V c main_arg6 _
    congr 1; funext a; apply Fin.ext
    match a with
    | ⟨0, _⟩ => show win3_2.index t (0 : Fin 1) * 128 + 1 * d.val = d.val; rw [e2]; omega
  · unfold iblk3; rw [View.read_apply]; show V c main_v45 _ = V c main_v45 _
    congr 1; funext a; apply Fin.ext
    match a with
    | ⟨0, _⟩ => show win3_3.index t (0 : Fin 1) * 128 + 1 * d.val = d.val; rw [e3]; omega
  · unfold iblk3; rw [View.read_apply]; show V c main_v52 _ = V c main_v52 _
    congr 1; funext a; apply Fin.ext
    match a with
    | ⟨0, _⟩ => show win3_4.index t (0 : Fin 1) * 128 + 1 * d.val = d.val; rw [e4]; omega

/-- What point `t` of region 3 writes back is its row block of the specified array. -/
private theorem flushed3_eq (c : Dev nD) (t : Fin cfg3.N) :
    (dat3 (F := Ideal) V c).flushed 6 t
      = ((cfg3.win 6).blk t).view.read (Elt Ideal)
          (Cert.ReferenceIdeal.Spec.bnAddRelu (F := Ideal) (V c main_v42) (V c main_arg5) (V c main_arg6) (V c main_v45) (V c main_v52)
            (V c main_arg0)) := by
  show (cfg3.win 6).cut (grid3.coords t) ((dat3 V c).after 6 t) = _
  rw [after3_6]
  unfold out3_6
  rw [View.canon_unit_zero zeros2]
  simp only [View.ld_unit_zero (S := S10000x128) zeros2, View.ld_unit_zero (S := S128) zeros1]
  funext j
  obtain ⟨r, d, rfl⟩ : ∃ (r : Fin 10000) (d : Fin 128), j = ix2 r d := ⟨j 0, j 1, eq_ix2 j⟩
  have hlt : t.val < 10 := lt_of_lt_of_eq t.isLt N_3
  obtain ⟨R, hR⟩ : ∃ R : Fin 100000, R.val = t.val * 10000 + r.val := ⟨⟨t.val * 10000 + r.val, by omega⟩, rfl⟩
  obtain ⟨-, -, -, -, e0, e1, -⟩ := blocks3 t
  have hemb : ((cfg3.win 6).blk t).view.emb (ix2 r d) = (ix2 R d : S100000x128.Idx) := by
    funext a; apply Fin.ext
    match a with
    | ⟨0, _⟩ => show win3_6.index t (0 : Fin 2) * 10000 + 1 * r.val = R.val; rw [e0, hR]; omega
    | ⟨1, _⟩ => show win3_6.index t (1 : Fin 2) * 128 + 1 * d.val = d.val; rw [e1]; omega
  show k3_pay1 (F := Ideal) (iblk3 V c 0 t) (iblk3 V c 4 t) (iblk3 V c 3 t) (iblk3 V c 1 t) (iblk3 V c 2 t) (iblk3 V c 5 t) (ix2 r d)
    = Cert.ReferenceIdeal.Spec.bnAddRelu (F := Ideal) (V c main_v42) (V c main_arg5) (V c main_arg6) (V c main_v45) (V c main_v52)
        (V c main_arg0) (((cfg3.win 6).blk t).view.emb (ix2 r d))
  rw [hemb, bnAddRelu_apply]
  refine (bnPay3_apply _ _ _ _ _ _ r d).trans ?_
  obtain ⟨h1, h2, h3, h4⟩ := vblocks3_apply V c t d
  obtain ⟨h0, h5⟩ := yblocks3_apply V c t r d R hR
  rw [h0, h5, h1, h2, h3, h4]

/-! ## Region 3: the ten row blocks tile the result -/

/-- An index of the result lies in point `t`'s block iff each coordinate is in the block's range on its axis. -/
private theorem mem_blk3 (t : Fin cfg3.N) (i : S100000x128.Idx) :
    i ∈ ((cfg3.win 6).blk t).view.set ↔ ∀ a : Fin 2, win3_6.index t a * S10000x128.size a ≤ (i a).val
      ∧ (i a).val < win3_6.index t a * S10000x128.size a + S10000x128.size a := by
  show i ∈ ((View.whole main_v53).slice (win3_6.rect t)).set ↔ _
  rw [View.set_slice_whole, Rect.mem_set_unit]
  exact Iff.rfl

/-- Row `R` of the result lies in the block of point `R / 10000`, and every point writes back. -/
private theorem cover3 (i : S100000x128.Idx) :
    ∃ t : Fin cfg3.N, (cfg3.win 6).flush t = true ∧ i ∈ ((cfg3.win 6).blk t).view.set := by
  have h0 : (i 0).val < 100000 := (i 0).isLt
  have h1 : (i 1).val < 128 := (i 1).isLt
  have hN : cfg3.N = 10 := N_3
  obtain ⟨t, ht⟩ : ∃ t : Fin cfg3.N, t.val = (i 0).val / 10000 := ⟨⟨(i 0).val / 10000, by rw [hN]; omega⟩, rfl⟩
  obtain ⟨-, -, -, -, e0, e1, -⟩ := blocks3 t
  refine ⟨t, flush3_6 t, ?_⟩
  rw [mem_blk3]
  intro a
  match a with
  | ⟨0, _⟩ =>
    show win3_6.index t (0 : Fin 2) * 10000 ≤ (i 0).val ∧ (i 0).val < win3_6.index t (0 : Fin 2) * 10000 + 10000
    rw [e0, ht]; omega
  | ⟨1, _⟩ =>
    show win3_6.index t (1 : Fin 2) * 128 ≤ (i 1).val ∧ (i 1).val < win3_6.index t (1 : Fin 2) * 128 + 128
    rw [e1]; omega

/-- Region 3's result array: normalise, scale, shift, add the skip input, clamp. -/
theorem bn_region3 (c : Dev nD) :
    ((dat3 (F := Ideal) V c).arrAt 6 cfg3.N : FVec Ideal S100000x128 .f32)
      = Cert.ReferenceIdeal.Spec.bnAddRelu (F := Ideal) (V c main_v42) (V c main_arg5) (V c main_arg6) (V c main_v45) (V c main_v52) (V c main_arg0) :=
  (dat3 (F := Ideal) V c).arrAt_eq_of_cover 6 _ (fun t _ => flushed3_eq V c t) cover3

end Cert.KernelIdeal.Conv

end
-- ==== Proof.Fold.lean ====
/-
  The result array through the program: each region's result is its function of the arrays it finds, each host
  stretch between two regions computes the next region's operands from the previous region's result and the
  arguments, and no stretch or region writes an argument; composed, the result is the block function of the
  nine arguments.
-/
import proofs.«139614_j8418135900537_1_alg».proof.Proof.Gen.KernelIdeal.Frame
import proofs.«139614_j8418135900537_1_alg».proof.Proof.Spec
import proofs.«139614_j8418135900537_1_alg».proof.Proof.GemmRegion
import proofs.«139614_j8418135900537_1_alg».proof.Proof.BnRegion
import Idealize.ShloMosaic.PureOps.Ideal
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.Conv

open Cert.KernelIdeal Cert.KernelIdeal.Gen
open Cert.ReferenceIdeal.Spec (gath prod scat conv colMean colVar bnRelu bnAddRelu half block)

/-! ## What the host stretches write

Each stretch writes its own temporaries and results and nothing else: a buffer outside the stretch's list holds
after the stretch what it held before. -/

/-- The buffers written between the launch and the first product: the wrapped gather table and the gathered rows. -/
private abbrev wrote0 : List (Ref sig .tc) :=
  [main_c, main_v0, main_v1, main_c_0, main_v2, main_v3, main_v4, main_v5, main_v6]
/-- Between the first product and the first normalisation: the wrapped scatter table, the scatter-add, the column
    mean and the column variance with their temporaries. -/
private abbrev wrote1 : List (Ref sig .tc) :=
  [main_cst, main_v8, main_c_1, main_v9, main_v10, main_c_2, main_v11, main_v12, main_v13, main_v14, main_v15,
   main_cst_3, main_v16, main_cst_4, main_v17, main_v18, main_v19, main_v20, main_v21, main_v22, main_cst_5,
   main_v23, main_cst_6, main_v24, main_v25]
/-- Between the first normalisation and the second product: the wrapped gather table and the gathered rows. -/
private abbrev wrote2 : List (Ref sig .tc) :=
  [main_c_7, main_v27, main_v28, main_c_8, main_v29, main_v30, main_v31, main_v32, main_v33]
/-- Between the second product and the second normalisation. -/
private abbrev wrote3 : List (Ref sig .tc) :=
  [main_cst_9, main_v35, main_c_10, main_v36, main_v37, main_c_11, main_v38, main_v39, main_v40, main_v41, main_v42,
   main_cst_12, main_v43, main_cst_13, main_v44, main_v45, main_v46, main_v47, main_v48, main_v49, main_cst_14,
   main_v50, main_cst_15, main_v51, main_v52]

/-- Every operation of a stretch writes one buffer, and that buffer is on the stretch's list. -/
local macro "each_write_listed" : tactic =>
  `(tactic| (repeat' apply And.intro
             all_goals
               simp only [StableHlo.nullary_writes, StableHlo.unary_writes, StableHlo.binary_writes,
                 StableHlo.ternary_writes, Finset.singleton_subset_iff, List.mem_toFinset]
               exact List.mem_map_of_mem (by decide)))

private theorem wrote0_covers : (hostOps0 (F := Ideal)).Forall fun op =>
    op.writes ⊆ (wrote0.map (Proc.devRef (τ := τ) .tc)).toFinset := by
  simp only [hostOps0, List.Forall]; each_write_listed
private theorem wrote1_covers : (hostOps1 (F := Ideal)).Forall fun op =>
    op.writes ⊆ (wrote1.map (Proc.devRef (τ := τ) .tc)).toFinset := by
  simp only [hostOps1, List.Forall]; each_write_listed
private theorem wrote2_covers : (hostOps2 (F := Ideal)).Forall fun op =>
    op.writes ⊆ (wrote2.map (Proc.devRef (τ := τ) .tc)).toFinset := by
  simp only [hostOps2, List.Forall]; each_write_listed
private theorem wrote3_covers : (hostOps3 (F := Ideal)).Forall fun op =>
    op.writes ⊆ (wrote3.map (Proc.devRef (τ := τ) .tc)).toFinset := by
  simp only [hostOps3, List.Forall]; each_write_listed

/-- A buffer off a stretch's list holds after the stretch what it held before. -/
private theorem kept0 (V : Valuation τ sig (Elt Ideal)) (b : Ref sig .tc) (h : b ∉ wrote0) :
    StableHlo.after (hostOps0 (F := Ideal)) V (Proc.devRef .tc b) = V (Proc.devRef .tc b) :=
  StableHlo.after_of_writes_sub hostOps0 V wrote0_covers h
private theorem kept1 (V : Valuation τ sig (Elt Ideal)) (b : Ref sig .tc) (h : b ∉ wrote1) :
    StableHlo.after (hostOps1 (F := Ideal)) V (Proc.devRef .tc b) = V (Proc.devRef .tc b) :=
  StableHlo.after_of_writes_sub hostOps1 V wrote1_covers h
private theorem kept2 (V : Valuation τ sig (Elt Ideal)) (b : Ref sig .tc) (h : b ∉ wrote2) :
    StableHlo.after (hostOps2 (F := Ideal)) V (Proc.devRef .tc b) = V (Proc.devRef .tc b) :=
  StableHlo.after_of_writes_sub hostOps2 V wrote2_covers h
private theorem kept3 (V : Valuation τ sig (Elt Ideal)) (b : Ref sig .tc) (h : b ∉ wrote3) :
    StableHlo.after (hostOps3 (F := Ideal)) V (Proc.devRef .tc b) = V (Proc.devRef .tc b) :=
  StableHlo.after_of_writes_sub hostOps3 V wrote3_covers h

/-! ## What each host stretch computes, from any contents it starts at

Stated at an arbitrary valuation, so that each side is a small term over the two or three buffers the stretch reads:
the stretch's operations with the kernel program's constants against the same operations with the reference's. -/

/-- First stretch: the rows of the input that the wrapped gather table names. -/
private theorem gathered0 (V : Valuation τ sig (Elt Ideal)) :
    (StableHlo.after (hostOps0 (F := Ideal)) V (Proc.devRef .tc main_v6) : FVec Ideal S27x50000x128 .f32)
      = gath (F := Ideal) (V (Proc.devRef .tc main_arg0)) (V (Proc.devRef .tc main_arg7)) := by
  after_results; rfl

/-- Third stretch: the rows of the first half's output that the wrapped gather table names. -/
private theorem gathered2 (V : Valuation τ sig (Elt Ideal)) :
    (StableHlo.after (hostOps2 (F := Ideal)) V (Proc.devRef .tc main_v33) : FVec Ideal S27x50000x128 .f32)
      = gath (F := Ideal) (V (Proc.devRef .tc main_v26)) (V (Proc.devRef .tc main_arg7)) := by
  after_results; rfl

/-- Second stretch: the first product's messages added into a zero array at the rows the scatter table names, -/
private theorem scattered1 (V : Valuation τ sig (Elt Ideal)) :
    (StableHlo.after (hostOps1 (F := Ideal)) V (Proc.devRef .tc main_v15) : FVec Ideal S100000x128 .f32)
      = scat (F := Ideal) (V (Proc.devRef .tc main_v7)) (V (Proc.devRef .tc main_arg8)) := by
  after_results_simp; rfl
/-- its column mean, -/
private theorem mean1 (V : Valuation τ sig (Elt Ideal)) :
    (StableHlo.after (hostOps1 (F := Ideal)) V (Proc.devRef .tc main_v18) : FVec Ideal S128 .f32)
      = colMean (F := Ideal) (scat (F := Ideal) (V (Proc.devRef .tc main_v7)) (V (Proc.devRef .tc main_arg8))) := by
  after_results_simp; rfl
/-- and its column variance about that mean. -/
private theorem var1 (V : Valuation τ sig (Elt Ideal)) :
    (StableHlo.after (hostOps1 (F := Ideal)) V (Proc.devRef .tc main_v25) : FVec Ideal S128 .f32)
      = colVar (F := Ideal) (scat (F := Ideal) (V (Proc.devRef .tc main_v7)) (V (Proc.devRef .tc main_arg8)))
          (colMean (F := Ideal) (scat (F := Ideal) (V (Proc.devRef .tc main_v7)) (V (Proc.devRef .tc main_arg8)))) := by
  after_results_simp; rfl

/-- Fourth stretch: the same three for the second product's messages. -/
private theorem scattered3 (V : Valuation τ sig (Elt Ideal)) :
    (StableHlo.after (hostOps3 (F := Ideal)) V (Proc.devRef .tc main_v42) : FVec Ideal S100000x128 .f32)
      = scat (F := Ideal) (V (Proc.devRef .tc main_v34)) (V (Proc.devRef .tc main_arg8)) := by
  after_results_simp; rfl
private theorem mean3 (V : Valuation τ sig (Elt Ideal)) :
    (StableHlo.after (hostOps3 (F := Ideal)) V (Proc.devRef .tc main_v45) : FVec Ideal S128 .f32)
      = colMean (F := Ideal) (scat (F := Ideal) (V (Proc.devRef .tc main_v34)) (V (Proc.devRef .tc main_arg8))) := by
  after_results_simp; rfl
private theorem var3 (V : Valuation τ sig (Elt Ideal)) :
    (StableHlo.after (hostOps3 (F := Ideal)) V (Proc.devRef .tc main_v52) : FVec Ideal S128 .f32)
      = colVar (F := Ideal) (scat (F := Ideal) (V (Proc.devRef .tc main_v34)) (V (Proc.devRef .tc main_arg8)))
          (colMean (F := Ideal) (scat (F := Ideal) (V (Proc.devRef .tc main_v34)) (V (Proc.devRef .tc main_arg8)))) := by
  after_results_simp; rfl

variable (m : (ℓ : Loc nD τ sig) → Buf (Elt Ideal) ℓ) (ρ : Dev nD → PrngReg)

/-! ## A buffer nothing has written holds its launch contents

Boundary by boundary: a stretch keeps a buffer off its list, a region keeps a buffer that is none of its windows'
arrays. -/

section Untouched
variable (c : Dev nD) (b : Ref sig .tc)

private theorem asLaunched1 (h0 : b ∉ wrote0) :
    W1 (F := Ideal) m ρ c (Proc.devRef .tc b) = m ((c : Thread nD τ).loc b) :=
  kept0 (W0 m ρ c) b h0
private theorem asLaunched2 (h0 : b ∉ wrote0) (r0 : ∀ w, Pipeline.arrRef spec0 w ≠ b) :
    W2 (F := Ideal) m ρ c (Proc.devRef .tc b) = m ((c : Thread nD τ).loc b) :=
  (W2_of_ne m ρ c b r0).trans (asLaunched1 m ρ c b h0)
private theorem asLaunched3 (h0 : b ∉ wrote0) (r0 : ∀ w, Pipeline.arrRef spec0 w ≠ b) (h1 : b ∉ wrote1) :
    W3 (F := Ideal) m ρ c (Proc.devRef .tc b) = m ((c : Thread nD τ).loc b) :=
  (kept1 (W2 m ρ c) b h1).trans (asLaunched2 m ρ c b h0 r0)
private theorem asLaunched4 (h0 : b ∉ wrote0) (r0 : ∀ w, Pipeline.arrRef spec0 w ≠ b) (h1 : b ∉ wrote1)
    (r1 : ∀ w, Pipeline.arrRef spec1 w ≠ b) :
    W4 (F := Ideal) m ρ c (Proc.devRef .tc b) = m ((c : Thread nD τ).loc b) :=
  (W4_of_ne m ρ c b r1).trans (asLaunched3 m ρ c b h0 r0 h1)
private theorem asLaunched5 (h0 : b ∉ wrote0) (r0 : ∀ w, Pipeline.arrRef spec0 w ≠ b) (h1 : b ∉ wrote1)
    (r1 : ∀ w, Pipeline.arrRef spec1 w ≠ b) (h2 : b ∉ wrote2) :
    W5 (F := Ideal) m ρ c (Proc.devRef .tc b) = m ((c : Thread nD τ).loc b) :=
  (kept2 (W4 m ρ c) b h2).trans (asLaunched4 m ρ c b h0 r0 h1 r1)
private theorem asLaunched6 (h0 : b ∉ wrote0) (r0 : ∀ w, Pipeline.arrRef spec0 w ≠ b) (h1 : b ∉ wrote1)
    (r1 : ∀ w, Pipeline.arrRef spec1 w ≠ b) (h2 : b ∉ wrote2) (r2 : ∀ w, Pipeline.arrRef spec2 w ≠ b) :
    W6 (F := Ideal) m ρ c (Proc.devRef .tc b) = m ((c : Thread nD τ).loc b) :=
  (W6_of_ne m ρ c b r2).trans (asLaunched5 m ρ c b h0 r0 h1 r1 h2)
private theorem asLaunched7 (h0 : b ∉ wrote0) (r0 : ∀ w, Pipeline.arrRef spec0 w ≠ b) (h1 : b ∉ wrote1)
    (r1 : ∀ w, Pipeline.arrRef spec1 w ≠ b) (h2 : b ∉ wrote2) (r2 : ∀ w, Pipeline.arrRef spec2 w ≠ b)
    (h3 : b ∉ wrote3) :
    W7 (F := Ideal) m ρ c (Proc.devRef .tc b) = m ((c : Thread nD τ).loc b) :=
  (kept3 (W6 m ρ c) b h3).trans (asLaunched6 m ρ c b h0 r0 h1 r1 h2 r2)

end Untouched

/-! ## The walk

From the launch to the result buffer, one boundary at a time. Each region's result is the region's function of
the arrays it finds; those arrays are the previous stretch's results and arguments still as launched. -/

section Walk
variable (c : Dev nD)

-- the notations below stand for terms over this section's variables
set_option quotPrecheck false

local notation "𝖺₀" => m ((c : Thread nD τ).loc main_arg0)
local notation "𝖺₁" => m ((c : Thread nD τ).loc main_arg1)
local notation "𝖺₂" => m ((c : Thread nD τ).loc main_arg2)
local notation "𝖺₃" => m ((c : Thread nD τ).loc main_arg3)
local notation "𝖺₄" => m ((c : Thread nD τ).loc main_arg4)
local notation "𝖺₅" => m ((c : Thread nD τ).loc main_arg5)
local notation "𝖺₆" => m ((c : Thread nD τ).loc main_arg6)
local notation "𝖺₇" => m ((c : Thread nD τ).loc main_arg7)
local notation "𝖺₈" => m ((c : Thread nD τ).loc main_arg8)

/-- Entering the first product: the gathered rows of the input. -/
private theorem rows1 :
    (W1 (F := Ideal) m ρ c (Proc.devRef .tc main_v6) : FVec Ideal S27x50000x128 .f32) = gath (F := Ideal) 𝖺₀ 𝖺₇ :=
  gathered0 (W0 m ρ c)

/-- Leaving it: the messages of the first convolution. -/
private theorem messages1 :
    (W2 (F := Ideal) m ρ c (Proc.devRef .tc main_v7) : FVec Ideal S27x50000x128 .f32)
      = prod (F := Ideal) (gath (F := Ideal) 𝖺₀ 𝖺₇) 𝖺₁ := by
  refine ((W2_arr m ρ c 2).trans (gemm_region0 (V1 m ρ) c)).trans ?_
  show prod (F := Ideal) (W1 m ρ c (Proc.devRef .tc main_v6)) (W1 m ρ c (Proc.devRef .tc main_arg1)) = _
  rw [rows1 m ρ c, asLaunched1 m ρ c main_arg1 (by decide)]

/-- Entering the first normalisation: the first convolution of the input, -/
private theorem conv1 :
    (W3 (F := Ideal) m ρ c (Proc.devRef .tc main_v15) : FVec Ideal S100000x128 .f32) = conv (F := Ideal) 𝖺₀ 𝖺₁ 𝖺₇ 𝖺₈ := by
  refine (scattered1 (W2 m ρ c)).trans ?_
  show _ = scat (F := Ideal) (prod (F := Ideal) (gath (F := Ideal) 𝖺₀ 𝖺₇) 𝖺₁) 𝖺₈
  rw [messages1 m ρ c, asLaunched2 m ρ c main_arg8 (by decide) (by decide)]
/-- its column mean, -/
private theorem convMean1 :
    (W3 (F := Ideal) m ρ c (Proc.devRef .tc main_v18) : FVec Ideal S128 .f32)
      = colMean (F := Ideal) (conv (F := Ideal) 𝖺₀ 𝖺₁ 𝖺₇ 𝖺₈) := by
  refine (mean1 (W2 m ρ c)).trans ?_
  show _ = colMean (F := Ideal) (scat (F := Ideal) (prod (F := Ideal) (gath (F := Ideal) 𝖺₀ 𝖺₇) 𝖺₁) 𝖺₈)
  rw [messages1 m ρ c, asLaunched2 m ρ c main_arg8 (by decide) (by decide)]
/-- and its column variance. -/
private theorem convVar1 :
    (W3 (F := Ideal) m ρ c (Proc.devRef .tc main_v25) : FVec Ideal S128 .f32)
      = colVar (F := Ideal) (conv (F := Ideal) 𝖺₀ 𝖺₁ 𝖺₇ 𝖺₈) (colMean (F := Ideal) (conv (F := Ideal) 𝖺₀ 𝖺₁ 𝖺₇ 𝖺₈)) := by
  refine (var1 (W2 m ρ c)).trans ?_
  show _ = colVar (F := Ideal) (scat (F := Ideal) (prod (F := Ideal) (gath (F := Ideal) 𝖺₀ 𝖺₇) 𝖺₁) 𝖺₈)
    (colMean (F := Ideal) (scat (F := Ideal) (prod (F := Ideal) (gath (F := Ideal) 𝖺₀ 𝖺₇) 𝖺₁) 𝖺₈))
  rw [messages1 m ρ c, asLaunched2 m ρ c main_arg8 (by decide) (by decide)]

/-- Leaving it: the first half of the block. -/
private theorem firstHalf :
    (W4 (F := Ideal) m ρ c (Proc.devRef .tc main_v26) : FVec Ideal S100000x128 .f32)
      = half (F := Ideal) 𝖺₀ 𝖺₁ 𝖺₂ 𝖺₃ 𝖺₇ 𝖺₈ := by
  refine ((W4_arr m ρ c 5).trans (bn_region1 (V3 m ρ) c)).trans ?_
  show bnRelu (F := Ideal) (W3 m ρ c (Proc.devRef .tc main_v15)) (W3 m ρ c (Proc.devRef .tc main_arg2))
      (W3 m ρ c (Proc.devRef .tc main_arg3)) (W3 m ρ c (Proc.devRef .tc main_v18)) (W3 m ρ c (Proc.devRef .tc main_v25))
    = bnRelu (F := Ideal) (conv (F := Ideal) 𝖺₀ 𝖺₁ 𝖺₇ 𝖺₈) 𝖺₂ 𝖺₃ (colMean (F := Ideal) (conv (F := Ideal) 𝖺₀ 𝖺₁ 𝖺₇ 𝖺₈))
        (colVar (F := Ideal) (conv (F := Ideal) 𝖺₀ 𝖺₁ 𝖺₇ 𝖺₈) (colMean (F := Ideal) (conv (F := Ideal) 𝖺₀ 𝖺₁ 𝖺₇ 𝖺₈)))
  rw [conv1 m ρ c, convMean1 m ρ c, convVar1 m ρ c,
    asLaunched3 m ρ c main_arg2 (by decide) (by decide) (by decide),
    asLaunched3 m ρ c main_arg3 (by decide) (by decide) (by decide)]

/-- Entering the second product: the gathered rows of the first half. -/
private theorem rows2 :
    (W5 (F := Ideal) m ρ c (Proc.devRef .tc main_v33) : FVec Ideal S27x50000x128 .f32)
      = gath (F := Ideal) (half (F := Ideal) 𝖺₀ 𝖺₁ 𝖺₂ 𝖺₃ 𝖺₇ 𝖺₈) 𝖺₇ := by
  refine (gathered2 (W4 m ρ c)).trans ?_
  rw [firstHalf m ρ c, asLaunched4 m ρ c main_arg7 (by decide) (by decide) (by decide) (by decide)]

/-- Leaving it: the messages of the second convolution. -/
private theorem messages2 :
    (W6 (F := Ideal) m ρ c (Proc.devRef .tc main_v34) : FVec Ideal S27x50000x128 .f32)
      = prod (F := Ideal) (gath (F := Ideal) (half (F := Ideal) 𝖺₀ 𝖺₁ 𝖺₂ 𝖺₃ 𝖺₇ 𝖺₈) 𝖺₇) 𝖺₄ := by
  refine ((W6_arr m ρ c 2).trans (gemm_region2 (V5 m ρ) c)).trans ?_
  show prod (F := Ideal) (W5 m ρ c (Proc.devRef .tc main_v33)) (W5 m ρ c (Proc.devRef .tc main_arg4)) = _
  rw [rows2 m ρ c, asLaunched5 m ρ c main_arg4 (by decide) (by decide) (by decide) (by decide) (by decide)]

/-- Entering the second normalisation: the second convolution, of the first half, -/
private theorem conv2 :
    (W7 (F := Ideal) m ρ c (Proc.devRef .tc main_v42) : FVec Ideal S100000x128 .f32)
      = conv (F := Ideal) (half (F := Ideal) 𝖺₀ 𝖺₁ 𝖺₂ 𝖺₃ 𝖺₇ 𝖺₈) 𝖺₄ 𝖺₇ 𝖺₈ := by
  refine (scattered3 (W6 m ρ c)).trans ?_
  show _ = scat (F := Ideal) (prod (F := Ideal) (gath (F := Ideal) (half (F := Ideal) 𝖺₀ 𝖺₁ 𝖺₂ 𝖺₃ 𝖺₇ 𝖺₈) 𝖺₇) 𝖺₄) 𝖺₈
  rw [messages2 m ρ c,
    asLaunched6 m ρ c main_arg8 (by decide) (by decide) (by decide) (by decide) (by decide) (by decide)]
/-- its column mean, -/
private theorem convMean2 :
    (W7 (F := Ideal) m ρ c (Proc.devRef .tc main_v45) : FVec Ideal S128 .f32)
      = colMean (F := Ideal) (conv (F := Ideal) (half (F := Ideal) 𝖺₀ 𝖺₁ 𝖺₂ 𝖺₃ 𝖺₇ 𝖺₈) 𝖺₄ 𝖺₇ 𝖺₈) := by
  refine (mean3 (W6 m ρ c)).trans ?_
  show _ = colMean (F := Ideal)
    (scat (F := Ideal) (prod (F := Ideal) (gath (F := Ideal) (half (F := Ideal) 𝖺₀ 𝖺₁ 𝖺₂ 𝖺₃ 𝖺₇ 𝖺₈) 𝖺₇) 𝖺₄) 𝖺₈)
  rw [messages2 m ρ c,
    asLaunched6 m ρ c main_arg8 (by decide) (by decide) (by decide) (by decide) (by decide) (by decide)]
/-- and its column variance. -/
private theorem convVar2 :
    (W7 (F := Ideal) m ρ c (Proc.devRef .tc main_v52) : FVec Ideal S128 .f32)
      = colVar (F := Ideal) (conv (F := Ideal) (half (F := Ideal) 𝖺₀ 𝖺₁ 𝖺₂ 𝖺₃ 𝖺₇ 𝖺₈) 𝖺₄ 𝖺₇ 𝖺₈)
          (colMean (F := Ideal) (conv (F := Ideal) (half (F := Ideal) 𝖺₀ 𝖺₁ 𝖺₂ 𝖺₃ 𝖺₇ 𝖺₈) 𝖺₄ 𝖺₇ 𝖺₈)) := by
  refine (var3 (W6 m ρ c)).trans ?_
  show _ = colVar (F := Ideal)
    (scat (F := Ideal) (prod (F := Ideal) (gath (F := Ideal) (half (F := Ideal) 𝖺₀ 𝖺₁ 𝖺₂ 𝖺₃ 𝖺₇ 𝖺₈) 𝖺₇) 𝖺₄) 𝖺₈)
    (colMean (F := Ideal)
      (scat (F := Ideal) (prod (F := Ideal) (gath (F := Ideal) (half (F := Ideal) 𝖺₀ 𝖺₁ 𝖺₂ 𝖺₃ 𝖺₇ 𝖺₈) 𝖺₇) 𝖺₄) 𝖺₈))
  rw [messages2 m ρ c,
    asLaunched6 m ρ c main_arg8 (by decide) (by decide) (by decide) (by decide) (by decide) (by decide)]

/-- Leaving it: the result buffer, as the last region's function of what the walk has found. -/
private theorem lastRegion :
    (W8 (F := Ideal) m ρ c (Proc.devRef .tc main_v53) : FVec Ideal S100000x128 .f32)
      = bnAddRelu (F := Ideal) (conv (F := Ideal) (half (F := Ideal) 𝖺₀ 𝖺₁ 𝖺₂ 𝖺₃ 𝖺₇ 𝖺₈) 𝖺₄ 𝖺₇ 𝖺₈) 𝖺₅ 𝖺₆
          (colMean (F := Ideal) (conv (F := Ideal) (half (F := Ideal) 𝖺₀ 𝖺₁ 𝖺₂ 𝖺₃ 𝖺₇ 𝖺₈) 𝖺₄ 𝖺₇ 𝖺₈))
          (colVar (F := Ideal) (conv (F := Ideal) (half (F := Ideal) 𝖺₀ 𝖺₁ 𝖺₂ 𝖺₃ 𝖺₇ 𝖺₈) 𝖺₄ 𝖺₇ 𝖺₈)
            (colMean (F := Ideal) (conv (F := Ideal) (half (F := Ideal) 𝖺₀ 𝖺₁ 𝖺₂ 𝖺₃ 𝖺₇ 𝖺₈) 𝖺₄ 𝖺₇ 𝖺₈))) 𝖺₀ := by
  refine ((W8_arr m ρ c 6).trans (bn_region3 (V7 m ρ) c)).trans ?_
  show bnAddRelu (F := Ideal) (W7 m ρ c (Proc.devRef .tc main_v42)) (W7 m ρ c (Proc.devRef .tc main_arg5))
      (W7 m ρ c (Proc.devRef .tc main_arg6)) (W7 m ρ c (Proc.devRef .tc main_v45)) (W7 m ρ c (Proc.devRef .tc main_v52))
      (W7 m ρ c (Proc.devRef .tc main_arg0)) = _
  rw [conv2 m ρ c, convMean2 m ρ c, convVar2 m ρ c,
    asLaunched7 m ρ c main_arg5 (by decide) (by decide) (by decide) (by decide) (by decide) (by decide) (by decide),
    asLaunched7 m ρ c main_arg6 (by decide) (by decide) (by decide) (by decide) (by decide) (by decide) (by decide),
    asLaunched7 m ρ c main_arg0 (by decide) (by decide) (by decide) (by decide) (by decide) (by decide) (by decide)]

end Walk

/-- The last boundary's contents at the result buffer: the block function of the launch contents of the arguments. -/
theorem result_eq (c : Dev nD) :
    (W8 (F := Ideal) m ρ c (Proc.devRef .tc main_v53) : FVec Ideal S100000x128 .f32)
      = Cert.ReferenceIdeal.Spec.block (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) :=
  -- the block function is, by its definition, the last region's function of the second convolution of the first half
  lastRegion m ρ c

end Cert.KernelIdeal.Conv

end
-- ==== Proof.lean ====
/-
  The certificate of the sparse-convolution residual block: relu(bn₂(conv₂(relu(bn₁(conv₁ x)))) + x) with both
  convolutions' batched products and both normalise-and-clamp tails computed by kernels, against the same block
  written with host operations only.

  Over the extended reals the two programs compute one function of the nine arguments. The product kernel
  multiplies, per kernel offset k and per block of 10000 gathered rows, a [10000,128] slab by the k-th [128,128]
  weight into a zero accumulator: element (k, r, d) is ∑_c g(k, r, c)·w(k, c, d), the element of the host's batched
  dot_general (the casts to bf16 are the identity on extended reals). The normalisation kernels compute, row block
  by row block, max((y − μ)·rsqrt(σ² + ε)·γ + β [+ x], 0) with the same ε word and the same operations in the
  same order as the host chain; mean and variance are computed by the same host operations in both programs,
  as are the index wrap, the gather and the scatter-add. No algebraic law beyond the definition of the matrix
  product is used, so the finiteness precondition is never opened.

  The frames of the two kernel programs are the generated ones; the reference's frame is its generated run with
  the result dropped; the idealisation rewrote nothing, so `preserves` is trivial.
-/
import proofs.«139614_j8418135900537_1_alg».proof.Defs
import proofs.«139614_j8418135900537_1_alg».proof.Proof.Gen.Kernel
import proofs.«139614_j8418135900537_1_alg».proof.Proof.Gen.Kernel.Skeleton
import proofs.«139614_j8418135900537_1_alg».proof.Proof.Gen.Kernel.Launch
import proofs.«139614_j8418135900537_1_alg».proof.Proof.Gen.Kernel.Points
import proofs.«139614_j8418135900537_1_alg».proof.Proof.Gen.Kernel.Frame
import proofs.«139614_j8418135900537_1_alg».proof.Proof.Gen.KernelIdeal
import proofs.«139614_j8418135900537_1_alg».proof.Proof.Gen.KernelIdeal.Skeleton
import proofs.«139614_j8418135900537_1_alg».proof.Proof.Gen.KernelIdeal.Launch
import proofs.«139614_j8418135900537_1_alg».proof.Proof.Gen.KernelIdeal.Points
import proofs.«139614_j8418135900537_1_alg».proof.Proof.Gen.KernelIdeal.Frame
import proofs.«139614_j8418135900537_1_alg».proof.Proof.Gen.ReferenceIdeal
import proofs.«139614_j8418135900537_1_alg».proof.Proof.Gen.Pre_finite_inputs
import proofs.«139614_j8418135900537_1_alg».proof.Proof.Gen.ReferenceIdeal.Run
import proofs.«139614_j8418135900537_1_alg».proof.Proof.Gen.ReferenceIdeal.Read
import proofs.«139614_j8418135900537_1_alg».proof.Proof.Spec
import proofs.«139614_j8418135900537_1_alg».proof.Proof.RefSpec
import proofs.«139614_j8418135900537_1_alg».proof.Proof.LaunchValue
import proofs.«139614_j8418135900537_1_alg».proof.Proof.Fold
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealised kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the block function of the (agreeing) arguments in their result arrays. -/
theorem algebraic : Cert.algebraic_KernelIdeal_ReferenceIdeal := by
  intro m ρ m' ρ' _ hagree
  refine ⟨_, Cert.KernelIdeal.Conv.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v84_eq, Cert.ReferenceIdeal.Spec.ref_block, e0, e1, e2, e3, e4, e5, e6, e7, e8]
  exact (Cert.KernelIdeal.Conv.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
